-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16)) (m ((c.tc : Thread Cert.Kernel.nD Cert.Kernel.τ).loc Cert.Kernel.main_arg17)) (m ((c.tc : Thread Cert.Kernel.nD Cert.Kernel.τ).loc Cert.Kernel.main_arg18)) (m ((c.tc : Thread Cert.Kernel.nD Cert.Kernel.τ).loc Cert.Kernel.main_arg19)) (m ((c.tc : Thread Cert.Kernel.nD Cert.Kernel.τ).loc Cert.Kernel.main_arg20))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19)) (m ((c.tc : Thread Cert.ReferenceIdeal.nD Cert.ReferenceIdeal.τ).loc Cert.ReferenceIdeal.main_arg20))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17)
      ∧ r.2.mem ((c.tc : Thread Cert.Kernel.nD Cert.Kernel.τ).loc Cert.Kernel.main_arg18) = m ((c.tc : Thread Cert.Kernel.nD Cert.Kernel.τ).loc Cert.Kernel.main_arg18)
      ∧ r.2.mem ((c.tc : Thread Cert.Kernel.nD Cert.Kernel.τ).loc Cert.Kernel.main_arg19) = m ((c.tc : Thread Cert.Kernel.nD Cert.Kernel.τ).loc Cert.Kernel.main_arg19)
      ∧ r.2.mem ((c.tc : Thread Cert.Kernel.nD Cert.Kernel.τ).loc Cert.Kernel.main_arg20) = m ((c.tc : Thread Cert.Kernel.nD Cert.Kernel.τ).loc Cert.Kernel.main_arg20))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
      ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
      ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18)
      ∧ r.2.mem ((c.tc : Thread Cert.ReferenceIdeal.nD Cert.ReferenceIdeal.τ).loc Cert.ReferenceIdeal.main_arg19) = m ((c.tc : Thread Cert.ReferenceIdeal.nD Cert.ReferenceIdeal.τ).loc Cert.ReferenceIdeal.main_arg19)
      ∧ r.2.mem ((c.tc : Thread Cert.ReferenceIdeal.nD Cert.ReferenceIdeal.τ).loc Cert.ReferenceIdeal.main_arg20) = m ((c.tc : Thread Cert.ReferenceIdeal.nD Cert.ReferenceIdeal.τ).loc Cert.ReferenceIdeal.main_arg20))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)
      ∧ m' ((c.tc : Thread Cert.ReferenceIdeal.nD Cert.ReferenceIdeal.τ).loc Cert.ReferenceIdeal.main_arg19) = m ((c.tc : Thread Cert.KernelIdeal.nD Cert.KernelIdeal.τ).loc Cert.KernelIdeal.main_arg19)
      ∧ m' ((c.tc : Thread Cert.ReferenceIdeal.nD Cert.ReferenceIdeal.τ).loc Cert.ReferenceIdeal.main_arg20) = m ((c.tc : Thread Cert.KernelIdeal.nD Cert.KernelIdeal.τ).loc Cert.KernelIdeal.main_arg20)) →
    ∃ (v0 : (c : Dev Cert.KernelIdeal.nD) → Buf (Elt Ideal) ((c.tc : Thread Cert.KernelIdeal.nD Cert.KernelIdeal.τ).loc Cert.KernelIdeal.main_v1)) (v1 : (c : Dev Cert.KernelIdeal.nD) → Buf (Elt Ideal) ((c.tc : Thread Cert.KernelIdeal.nD Cert.KernelIdeal.τ).loc Cert.KernelIdeal.main_v2)) (v2 : (c : Dev Cert.KernelIdeal.nD) → Buf (Elt Ideal) ((c.tc : Thread Cert.KernelIdeal.nD Cert.KernelIdeal.τ).loc Cert.KernelIdeal.main_v3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_v2) = v1 c
          ∧ r.2.mem ((c.tc : Thread Cert.KernelIdeal.nD Cert.KernelIdeal.τ).loc Cert.KernelIdeal.main_v3) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
          ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
          ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
          ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v77) = v0 c
          ∧ r.2.mem ((c.tc : Thread Cert.ReferenceIdeal.nD Cert.ReferenceIdeal.τ).loc Cert.ReferenceIdeal.main_v83) = v1 c
          ∧ r.2.mem ((c.tc : Thread Cert.ReferenceIdeal.nD Cert.ReferenceIdeal.τ).loc Cert.ReferenceIdeal.main_v88) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17)
          ∧ r.2.mem ((c.tc : Thread Cert.ReferenceIdeal.nD Cert.ReferenceIdeal.τ).loc Cert.ReferenceIdeal.main_arg18) = m' ((c.tc : Thread Cert.ReferenceIdeal.nD Cert.ReferenceIdeal.τ).loc Cert.ReferenceIdeal.main_arg18)
          ∧ r.2.mem ((c.tc : Thread Cert.ReferenceIdeal.nD Cert.ReferenceIdeal.τ).loc Cert.ReferenceIdeal.main_arg19) = m' ((c.tc : Thread Cert.ReferenceIdeal.nD Cert.ReferenceIdeal.τ).loc Cert.ReferenceIdeal.main_arg19)
          ∧ r.2.mem ((c.tc : Thread Cert.ReferenceIdeal.nD Cert.ReferenceIdeal.τ).loc Cert.ReferenceIdeal.main_arg20) = m' ((c.tc : Thread Cert.ReferenceIdeal.nD Cert.ReferenceIdeal.τ).loc Cert.ReferenceIdeal.main_arg20))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S1x29 : Shape := ⟨2, ![1, 29]⟩
abbrev S1x128 : Shape := ⟨2, ![1, 128]⟩
abbrev S256x29 : Shape := ⟨2, ![256, 29]⟩
abbrev S256 : Shape := ⟨1, ![256]⟩
abbrev S256x256 : Shape := ⟨2, ![256, 256]⟩
abbrev S128x256 : Shape := ⟨2, ![128, 256]⟩
abbrev S128 : Shape := ⟨1, ![128]⟩
abbrev S128x128 : Shape := ⟨2, ![128, 128]⟩
abbrev S512x128 : Shape := ⟨2, ![512, 128]⟩
abbrev S512 : Shape := ⟨1, ![512]⟩
abbrev S1 : Shape := ⟨1, ![1]⟩
abbrev S3x128 : Shape := ⟨2, ![3, 128]⟩
abbrev S3 : Shape := ⟨1, ![3]⟩
abbrev S_ : Shape := ⟨0, ![]⟩

class Facts : Prop where
  bcast_S_S1x29 : S_.BroadcastsInDim S1x29 (![] : Fin 0 → Fin S1x29.rank)
  reducesTo_S1x29_S_d0_1 : S1x29.ReducesTo [0, 1] S_
  h_S_ : 0 < S_.numel
  bcast_S_S1x128 : S_.BroadcastsInDim S1x128 (![] : Fin 0 → Fin S1x128.rank)
  reducesTo_S1x128_S_d0_1 : S1x128.ReducesTo [0, 1] S_
  bcast_S_S256x29 : S_.BroadcastsInDim S256x29 (![] : Fin 0 → Fin S256x29.rank)
  reducesTo_S256x29_S_d0_1 : S256x29.ReducesTo [0, 1] S_
  bcast_S_S256 : S_.BroadcastsInDim S256 (![] : Fin 0 → Fin S256.rank)
  reducesTo_S256_S_d0 : S256.ReducesTo [0] S_
  bcast_S_S256x256 : S_.BroadcastsInDim S256x256 (![] : Fin 0 → Fin S256x256.rank)
  reducesTo_S256x256_S_d0_1 : S256x256.ReducesTo [0, 1] S_
  bcast_S_S128x256 : S_.BroadcastsInDim S128x256 (![] : Fin 0 → Fin S128x256.rank)
  reducesTo_S128x256_S_d0_1 : S128x256.ReducesTo [0, 1] S_
  bcast_S_S128 : S_.BroadcastsInDim S128 (![] : Fin 0 → Fin S128.rank)
  reducesTo_S128_S_d0 : S128.ReducesTo [0] S_
  bcast_S_S128x128 : S_.BroadcastsInDim S128x128 (![] : Fin 0 → Fin S128x128.rank)
  reducesTo_S128x128_S_d0_1 : S128x128.ReducesTo [0, 1] S_
  bcast_S_S512x128 : S_.BroadcastsInDim S512x128 (![] : Fin 0 → Fin S512x128.rank)
  reducesTo_S512x128_S_d0_1 : S512x128.ReducesTo [0, 1] S_
  bcast_S_S512 : S_.BroadcastsInDim S512 (![] : Fin 0 → Fin S512.rank)
  reducesTo_S512_S_d0 : S512.ReducesTo [0] S_
  bcast_S_S1 : S_.BroadcastsInDim S1 (![] : Fin 0 → Fin S1.rank)
  reducesTo_S1_S_d0 : S1.ReducesTo [0] S_
  bcast_S_S3x128 : S_.BroadcastsInDim S3x128 (![] : Fin 0 → Fin S3x128.rank)
  reducesTo_S3x128_S_d0_1 : S3x128.ReducesTo [0, 1] S_
  bcast_S_S3 : S_.BroadcastsInDim S3 (![] : Fin 0 → Fin S3.rank)
  reducesTo_S3_S_d0 : S3.ReducesTo [0] S_

variable [Facts]

def fn_part6 {F : FTy → Type} [FloatOps F] (main_v98 : IVec S_ 1) (main_v101 : IVec S3 1) (main_c_39 : IVec S_ 1) : IVec S_ 1 :=
  let main_v102 : IVec S_ 1 := (fun x v => Host.reduce IntOp.andi x v reducesTo_S3_S_d0 h_S_) main_v101 main_c_39
  let main_v103 : IVec S_ 1 := andi main_v98 main_v102
  main_v103

def fn_part5 {F : FTy → Type} [FloatOps F] (main_arg18 : FVec F S3 .f32) (main_arg19 : FVec F S3x128 .f32) (main_arg20 : FVec F S3 .f32) (main_v83 : IVec S_ 1) (main_v84 : FVec F S3x128 .f32) (main_cst_32 : FVec F S_ .f32) : IVec S_ 1 :=
  let main_v85 : FVec F S3x128 .f32 := broadcastInDim S3x128 ![] bcast_S_S3x128 main_cst_32
  let main_v86 : IVec S3x128 1 := cmpf .olt main_v84 main_v85
  let main_c_33 : IVec S_ 1 := constantI S_ 1 1#1
  let main_v87 : IVec S_ 1 := (fun x v => Host.reduce IntOp.andi x v reducesTo_S3x128_S_d0_1 h_S_) main_v86 main_c_33
  let main_v88 : IVec S_ 1 := andi main_v83 main_v87
  let main_v89 : FVec F S3 .f32 := Host.absf main_arg18
  let main_cst_34 : FVec F S_ .f32 := constant S_ .f32 0x7F800000#32
  let main_v90 : FVec F S3 .f32 := broadcastInDim S3 ![] bcast_S_S3 main_cst_34
  let main_v91 : IVec S3 1 := cmpf .olt main_v89 main_v90
  let main_c_35 : IVec S_ 1 := constantI S_ 1 1#1
  let main_v92 : IVec S_ 1 := (fun x v => Host.reduce IntOp.andi x v reducesTo_S3_S_d0 h_S_) main_v91 main_c_35
  let main_v93 : IVec S_ 1 := andi main_v88 main_v92
  let main_v94 : FVec F S3x128 .f32 := Host.absf main_arg19
  let main_cst_36 : FVec F S_ .f32 := constant S_ .f32 0x7F800000#32
  let main_v95 : FVec F S3x128 .f32 := broadcastInDim S3x128 ![] bcast_S_S3x128 main_cst_36
  let main_v96 : IVec S3x128 1 := cmpf .olt main_v94 main_v95
  let main_c_37 : IVec S_ 1 := constantI S_ 1 1#1
  let main_v97 : IVec S_ 1 := (fun x v => Host.reduce IntOp.andi x v reducesTo_S3x128_S_d0_1 h_S_) main_v96 main_c_37
  let main_v98 : IVec S_ 1 := andi main_v93 main_v97
  let main_v99 : FVec F S3 .f32 := Host.absf main_arg20
  let main_cst_38 : FVec F S_ .f32 := constant S_ .f32 0x7F800000#32
  let main_v100 : FVec F S3 .f32 := broadcastInDim S3 ![] bcast_S_S3 main_cst_38
  let main_v101 : IVec S3 1 := cmpf .olt main_v99 main_v100
  let main_c_39 : IVec S_ 1 := constantI S_ 1 1#1
  fn_part6 (F := F) main_v98 main_v101 main_c_39

def fn_part4 {F : FTy → Type} [FloatOps F] (main_arg14 : FVec F S512 .f32) (main_arg15 : FVec F S1x128 .f32) (main_arg16 : FVec F S1 .f32) (main_arg17 : FVec F S3x128 .f32) (main_arg18 : FVec F S3 .f32) (main_arg19 : FVec F S3x128 .f32) (main_arg20 : FVec F S3 .f32) (main_v63 : IVec S_ 1) (main_v67 : IVec S_ 1) : IVec S_ 1 :=
  let main_v68 : IVec S_ 1 := andi main_v63 main_v67
  let main_v69 : FVec F S512 .f32 := Host.absf main_arg14
  let main_cst_26 : FVec F S_ .f32 := constant S_ .f32 0x7F800000#32
  let main_v70 : FVec F S512 .f32 := broadcastInDim S512 ![] bcast_S_S512 main_cst_26
  let main_v71 : IVec S512 1 := cmpf .olt main_v69 main_v70
  let main_c_27 : IVec S_ 1 := constantI S_ 1 1#1
  let main_v72 : IVec S_ 1 := (fun x v => Host.reduce IntOp.andi x v reducesTo_S512_S_d0 h_S_) main_v71 main_c_27
  let main_v73 : IVec S_ 1 := andi main_v68 main_v72
  let main_v74 : FVec F S1x128 .f32 := Host.absf main_arg15
  let main_cst_28 : FVec F S_ .f32 := constant S_ .f32 0x7F800000#32
  let main_v75 : FVec F S1x128 .f32 := broadcastInDim S1x128 ![] bcast_S_S1x128 main_cst_28
  let main_v76 : IVec S1x128 1 := cmpf .olt main_v74 main_v75
  let main_c_29 : IVec S_ 1 := constantI S_ 1 1#1
  let main_v77 : IVec S_ 1 := (fun x v => Host.reduce IntOp.andi x v reducesTo_S1x128_S_d0_1 h_S_) main_v76 main_c_29
  let main_v78 : IVec S_ 1 := andi main_v73 main_v77
  let main_v79 : FVec F S1 .f32 := Host.absf main_arg16
  let main_cst_30 : FVec F S_ .f32 := constant S_ .f32 0x7F800000#32
  let main_v80 : FVec F S1 .f32 := broadcastInDim S1 ![] bcast_S_S1 main_cst_30
  let main_v81 : IVec S1 1 := cmpf .olt main_v79 main_v80
  let main_c_31 : IVec S_ 1 := constantI S_ 1 1#1
  let main_v82 : IVec S_ 1 := (fun x v => Host.reduce IntOp.andi x v reducesTo_S1_S_d0 h_S_) main_v81 main_c_31
  let main_v83 : IVec S_ 1 := andi main_v78 main_v82
  let main_v84 : FVec F S3x128 .f32 := Host.absf main_arg17
  let main_cst_32 : FVec F S_ .f32 := constant S_ .f32 0x7F800000#32
  fn_part5 (F := F) main_arg18 main_arg19 main_arg20 main_v83 main_v84 main_cst_32

def fn_part3 {F : FTy → Type} [FloatOps F] (main_arg11 : FVec F S512x128 .f32) (main_arg12 : FVec F S512 .f32) (main_arg13 : FVec F S512x128 .f32) (main_arg14 : FVec F S512 .f32) (main_arg15 : FVec F S1x128 .f32) (main_arg16 : FVec F S1 .f32) (main_arg17 : FVec F S3x128 .f32) (main_arg18 : FVec F S3 .f32) (main_arg19 : FVec F S3x128 .f32) (main_arg20 : FVec F S3 .f32) (main_v48 : IVec S_ 1) (main_v49 : FVec F S128 .f32) (main_v50 : FVec F S128 .f32) : IVec S_ 1 :=
  let main_v51 : IVec S128 1 := cmpf .olt main_v49 main_v50
  let main_c_19 : IVec S_ 1 := constantI S_ 1 1#1
  let main_v52 : IVec S_ 1 := (fun x v => Host.reduce IntOp.andi x v reducesTo_S128_S_d0 h_S_) main_v51 main_c_19
  let main_v53 : IVec S_ 1 := andi main_v48 main_v52
  let main_v54 : FVec F S512x128 .f32 := Host.absf main_arg11
  let main_cst_20 : FVec F S_ .f32 := constant S_ .f32 0x7F800000#32
  let main_v55 : FVec F S512x128 .f32 := broadcastInDim S512x128 ![] bcast_S_S512x128 main_cst_20
  let main_v56 : IVec S512x128 1 := cmpf .olt main_v54 main_v55
  let main_c_21 : IVec S_ 1 := constantI S_ 1 1#1
  let main_v57 : IVec S_ 1 := (fun x v => Host.reduce IntOp.andi x v reducesTo_S512x128_S_d0_1 h_S_) main_v56 main_c_21
  let main_v58 : IVec S_ 1 := andi main_v53 main_v57
  let main_v59 : FVec F S512 .f32 := Host.absf main_arg12
  let main_cst_22 : FVec F S_ .f32 := constant S_ .f32 0x7F800000#32
  let main_v60 : FVec F S512 .f32 := broadcastInDim S512 ![] bcast_S_S512 main_cst_22
  let main_v61 : IVec S512 1 := cmpf .olt main_v59 main_v60
  let main_c_23 : IVec S_ 1 := constantI S_ 1 1#1
  let main_v62 : IVec S_ 1 := (fun x v => Host.reduce IntOp.andi x v reducesTo_S512_S_d0 h_S_) main_v61 main_c_23
  let main_v63 : IVec S_ 1 := andi main_v58 main_v62
  let main_v64 : FVec F S512x128 .f32 := Host.absf main_arg13
  let main_cst_24 : FVec F S_ .f32 := constant S_ .f32 0x7F800000#32
  let main_v65 : FVec F S512x128 .f32 := broadcastInDim S512x128 ![] bcast_S_S512x128 main_cst_24
  let main_v66 : IVec S512x128 1 := cmpf .olt main_v64 main_v65
  let main_c_25 : IVec S_ 1 := constantI S_ 1 1#1
  let main_v67 : IVec S_ 1 := (fun x v => Host.reduce IntOp.andi x v reducesTo_S512x128_S_d0_1 h_S_) main_v66 main_c_25
  fn_part4 (F := F) main_arg14 main_arg15 main_arg16 main_arg17 main_arg18 main_arg19 main_arg20 main_v63 main_v67

def fn_part2 {F : FTy → Type} [FloatOps F] (main_arg7 : FVec F S128x256 .f32) (main_arg8 : FVec F S128 .f32) (main_arg9 : FVec F S128x128 .f32) (main_arg10 : FVec F S128 .f32) (main_arg11 : FVec F S512x128 .f32) (main_arg12 : FVec F S512 .f32) (main_arg13 : FVec F S512x128 .f32) (main_arg14 : FVec F S512 .f32) (main_arg15 : FVec F S1x128 .f32) (main_arg16 : FVec F S1 .f32) (main_arg17 : FVec F S3x128 .f32) (main_arg18 : FVec F S3 .f32) (main_arg19 : FVec F S3x128 .f32) (main_arg20 : FVec F S3 .f32) (main_v33 : IVec S_ 1) : IVec S_ 1 :=
  let main_v34 : FVec F S128x256 .f32 := Host.absf main_arg7
  let main_cst_12 : FVec F S_ .f32 := constant S_ .f32 0x7F800000#32
  let main_v35 : FVec F S128x256 .f32 := broadcastInDim S128x256 ![] bcast_S_S128x256 main_cst_12
  let main_v36 : IVec S128x256 1 := cmpf .olt main_v34 main_v35
  let main_c_13 : IVec S_ 1 := constantI S_ 1 1#1
  let main_v37 : IVec S_ 1 := (fun x v => Host.reduce IntOp.andi x v reducesTo_S128x256_S_d0_1 h_S_) main_v36 main_c_13
  let main_v38 : IVec S_ 1 := andi main_v33 main_v37
  let main_v39 : FVec F S128 .f32 := Host.absf main_arg8
  let main_cst_14 : FVec F S_ .f32 := constant S_ .f32 0x7F800000#32
  let main_v40 : FVec F S128 .f32 := broadcastInDim S128 ![] bcast_S_S128 main_cst_14
  let main_v41 : IVec S128 1 := cmpf .olt main_v39 main_v40
  let main_c_15 : IVec S_ 1 := constantI S_ 1 1#1
  let main_v42 : IVec S_ 1 := (fun x v => Host.reduce IntOp.andi x v reducesTo_S128_S_d0 h_S_) main_v41 main_c_15
  let main_v43 : IVec S_ 1 := andi main_v38 main_v42
  let main_v44 : FVec F S128x128 .f32 := Host.absf main_arg9
  let main_cst_16 : FVec F S_ .f32 := constant S_ .f32 0x7F800000#32
  let main_v45 : FVec F S128x128 .f32 := broadcastInDim S128x128 ![] bcast_S_S128x128 main_cst_16
  let main_v46 : IVec S128x128 1 := cmpf .olt main_v44 main_v45
  let main_c_17 : IVec S_ 1 := constantI S_ 1 1#1
  let main_v47 : IVec S_ 1 := (fun x v => Host.reduce IntOp.andi x v reducesTo_S128x128_S_d0_1 h_S_) main_v46 main_c_17
  let main_v48 : IVec S_ 1 := andi main_v43 main_v47
  let main_v49 : FVec F S128 .f32 := Host.absf main_arg10
  let main_cst_18 : FVec F S_ .f32 := constant S_ .f32 0x7F800000#32
  let main_v50 : FVec F S128 .f32 := broadcastInDim S128 ![] bcast_S_S128 main_cst_18
  fn_part3 (F := F) main_arg11 main_arg12 main_arg13 main_arg14 main_arg15 main_arg16 main_arg17 main_arg18 main_arg19 main_arg20 main_v48 main_v49 main_v50

def fn_part1 {F : FTy → Type} [FloatOps F] (main_arg4 : FVec F S256 .f32) (main_arg5 : FVec F S256x256 .f32) (main_arg6 : FVec F S256 .f32) (main_arg7 : FVec F S128x256 .f32) (main_arg8 : FVec F S128 .f32) (main_arg9 : FVec F S128x128 .f32) (main_arg10 : FVec F S128 .f32) (main_arg11 : FVec F S512x128 .f32) (main_arg12 : FVec F S512 .f32) (main_arg13 : FVec F S512x128 .f32) (main_arg14 : FVec F S512 .f32) (main_arg15 : FVec F S1x128 .f32) (main_arg16 : FVec F S1 .f32) (main_arg17 : FVec F S3x128 .f32) (main_arg18 : FVec F S3 .f32) (main_arg19 : FVec F S3x128 .f32) (main_arg20 : FVec F S3 .f32) (main_v13 : IVec S_ 1) (main_v16 : IVec S256x29 1) : IVec S_ 1 :=
  let main_c_5 : IVec S_ 1 := constantI S_ 1 1#1
  let main_v17 : IVec S_ 1 := (fun x v => Host.reduce IntOp.andi x v reducesTo_S256x29_S_d0_1 h_S_) main_v16 main_c_5
  let main_v18 : IVec S_ 1 := andi main_v13 main_v17
  let main_v19 : FVec F S256 .f32 := Host.absf main_arg4
  let main_cst_6 : FVec F S_ .f32 := constant S_ .f32 0x7F800000#32
  let main_v20 : FVec F S256 .f32 := broadcastInDim S256 ![] bcast_S_S256 main_cst_6
  let main_v21 : IVec S256 1 := cmpf .olt main_v19 main_v20
  let main_c_7 : IVec S_ 1 := constantI S_ 1 1#1
  let main_v22 : IVec S_ 1 := (fun x v => Host.reduce IntOp.andi x v reducesTo_S256_S_d0 h_S_) main_v21 main_c_7
  let main_v23 : IVec S_ 1 := andi main_v18 main_v22
  let main_v24 : FVec F S256x256 .f32 := Host.absf main_arg5
  let main_cst_8 : FVec F S_ .f32 := constant S_ .f32 0x7F800000#32
  let main_v25 : FVec F S256x256 .f32 := broadcastInDim S256x256 ![] bcast_S_S256x256 main_cst_8
  let main_v26 : IVec S256x256 1 := cmpf .olt main_v24 main_v25
  let main_c_9 : IVec S_ 1 := constantI S_ 1 1#1
  let main_v27 : IVec S_ 1 := (fun x v => Host.reduce IntOp.andi x v reducesTo_S256x256_S_d0_1 h_S_) main_v26 main_c_9
  let main_v28 : IVec S_ 1 := andi main_v23 main_v27
  let main_v29 : FVec F S256 .f32 := Host.absf main_arg6
  let main_cst_10 : FVec F S_ .f32 := constant S_ .f32 0x7F800000#32
  let main_v30 : FVec F S256 .f32 := broadcastInDim S256 ![] bcast_S_S256 main_cst_10
  let main_v31 : IVec S256 1 := cmpf .olt main_v29 main_v30
  let main_c_11 : IVec S_ 1 := constantI S_ 1 1#1
  let main_v32 : IVec S_ 1 := (fun x v => Host.reduce IntOp.andi x v reducesTo_S256_S_d0 h_S_) main_v31 main_c_11
  let main_v33 : IVec S_ 1 := andi main_v28 main_v32
  fn_part2 (F := F) main_arg7 main_arg8 main_arg9 main_arg10 main_arg11 main_arg12 main_arg13 main_arg14 main_arg15 main_arg16 main_arg17 main_arg18 main_arg19 main_arg20 main_v33

def fn {F : FTy → Type} [FloatOps F] (main_arg0 : FVec F S1x29 .f32) (main_arg1 : FVec F S1x128 .f32) (main_arg2 : FVec F S1x128 .f32) (main_arg3 : FVec F S256x29 .f32) (main_arg4 : FVec F S256 .f32) (main_arg5 : FVec F S256x256 .f32) (main_arg6 : FVec F S256 .f32) (main_arg7 : FVec F S128x256 .f32) (main_arg8 : FVec F S128 .f32) (main_arg9 : FVec F S128x128 .f32) (main_arg10 : FVec F S128 .f32) (main_arg11 : FVec F S512x128 .f32) (main_arg12 : FVec F S512 .f32) (main_arg13 : FVec F S512x128 .f32) (main_arg14 : FVec F S512 .f32) (main_arg15 : FVec F S1x128 .f32) (main_arg16 : FVec F S1 .f32) (main_arg17 : FVec F S3x128 .f32) (main_arg18 : FVec F S3 .f32) (main_arg19 : FVec F S3x128 .f32) (main_arg20 : FVec F S3 .f32) : IVec S_ 1 :=
  let main_v0 : FVec F S1x29 .f32 := Host.absf main_arg0
  let main_cst : FVec F S_ .f32 := constant S_ .f32 0x7F800000#32
  let main_v1 : FVec F S1x29 .f32 := broadcastInDim S1x29 ![] bcast_S_S1x29 main_cst
  let main_v2 : IVec S1x29 1 := cmpf .olt main_v0 main_v1
  let main_c : IVec S_ 1 := constantI S_ 1 1#1
  let main_v3 : IVec S_ 1 := (fun x v => Host.reduce IntOp.andi x v reducesTo_S1x29_S_d0_1 h_S_) main_v2 main_c
  let main_v4 : FVec F S1x128 .f32 := Host.absf main_arg1
  let main_cst_0 : FVec F S_ .f32 := constant S_ .f32 0x7F800000#32
  let main_v5 : FVec F S1x128 .f32 := broadcastInDim S1x128 ![] bcast_S_S1x128 main_cst_0
  let main_v6 : IVec S1x128 1 := cmpf .olt main_v4 main_v5
  let main_c_1 : IVec S_ 1 := constantI S_ 1 1#1
  let main_v7 : IVec S_ 1 := (fun x v => Host.reduce IntOp.andi x v reducesTo_S1x128_S_d0_1 h_S_) main_v6 main_c_1
  let main_v8 : IVec S_ 1 := andi main_v3 main_v7
  let main_v9 : FVec F S1x128 .f32 := Host.absf main_arg2
  let main_cst_2 : FVec F S_ .f32 := constant S_ .f32 0x7F800000#32
  let main_v10 : FVec F S1x128 .f32 := broadcastInDim S1x128 ![] bcast_S_S1x128 main_cst_2
  let main_v11 : IVec S1x128 1 := cmpf .olt main_v9 main_v10
  let main_c_3 : IVec S_ 1 := constantI S_ 1 1#1
  let main_v12 : IVec S_ 1 := (fun x v => Host.reduce IntOp.andi x v reducesTo_S1x128_S_d0_1 h_S_) main_v11 main_c_3
  let main_v13 : IVec S_ 1 := andi main_v8 main_v12
  let main_v14 : FVec F S256x29 .f32 := Host.absf main_arg3
  let main_cst_4 : FVec F S_ .f32 := constant S_ .f32 0x7F800000#32
  let main_v15 : FVec F S256x29 .f32 := broadcastInDim S256x29 ![] bcast_S_S256x29 main_cst_4
  let main_v16 : IVec S256x29 1 := cmpf .olt main_v14 main_v15
  fn_part1 (F := F) main_arg4 main_arg5 main_arg6 main_arg7 main_arg8 main_arg9 main_arg10 main_arg11 main_arg12 main_arg13 main_arg14 main_arg15 main_arg16 main_arg17 main_arg18 main_arg19 main_arg20 main_v13 main_v16
-- ==== Kernel.lean ====
abbrev S1x29 : Shape := ⟨2, ![1, 29]⟩
abbrev S1x128 : Shape := ⟨2, ![1, 128]⟩
abbrev S256x29 : Shape := ⟨2, ![256, 29]⟩
abbrev S256 : Shape := ⟨1, ![256]⟩
abbrev S256x256 : Shape := ⟨2, ![256, 256]⟩
abbrev S128x256 : Shape := ⟨2, ![128, 256]⟩
abbrev S128 : Shape := ⟨1, ![128]⟩
abbrev S128x128 : Shape := ⟨2, ![128, 128]⟩
abbrev S512x128 : Shape := ⟨2, ![512, 128]⟩
abbrev S512 : Shape := ⟨1, ![512]⟩
abbrev S1 : Shape := ⟨1, ![1]⟩
abbrev S3x128 : Shape := ⟨2, ![3, 128]⟩
abbrev S3 : Shape := ⟨1, ![3]⟩
abbrev S1x1 : Shape := ⟨2, ![1, 1]⟩
abbrev S1x3 : Shape := ⟨2, ![1, 3]⟩
abbrev S1x256 : Shape := ⟨2, ![1, 256]⟩
abbrev S1x512 : Shape := ⟨2, ![1, 512]⟩
abbrev S_ : Shape := ⟨0, ![]⟩

abbrev nBuf : Space → Nat
  | .hbm => 27
  | .vmem => 24
  | .smem => 0
  | _ => 0

abbrev bufTy : (tb : Table) → Fin (tcTables nBuf tb) → BufTy
  | .hbm, ⟨0, _⟩ => ⟨S1x29, .f32⟩
  | .hbm, ⟨1, _⟩ => ⟨S1x128, .f32⟩
  | .hbm, ⟨2, _⟩ => ⟨S1x128, .f32⟩
  | .hbm, ⟨3, _⟩ => ⟨S256x29, .f32⟩
  | .hbm, ⟨4, _⟩ => ⟨S256, .f32⟩
  | .hbm, ⟨5, _⟩ => ⟨S256x256, .f32⟩
  | .hbm, ⟨6, _⟩ => ⟨S256, .f32⟩
  | .hbm, ⟨7, _⟩ => ⟨S128x256, .f32⟩
  | .hbm, ⟨8, _⟩ => ⟨S128, .f32⟩
  | .hbm, ⟨9, _⟩ => ⟨S128x128, .f32⟩
  | .hbm, ⟨10, _⟩ => ⟨S128, .f32⟩
  | .hbm, ⟨11, _⟩ => ⟨S512x128, .f32⟩
  | .hbm, ⟨12, _⟩ => ⟨S512, .f32⟩
  | .hbm, ⟨13, _⟩ => ⟨S512x128, .f32⟩
  | .hbm, ⟨14, _⟩ => ⟨S512, .f32⟩
  | .hbm, ⟨15, _⟩ => ⟨S1x128, .f32⟩
  | .hbm, ⟨16, _⟩ => ⟨S1, .f32⟩
  | .hbm, ⟨17, _⟩ => ⟨S3x128, .f32⟩
  | .hbm, ⟨18, _⟩ => ⟨S3, .f32⟩
  | .hbm, ⟨19, _⟩ => ⟨S3x128, .f32⟩
  | .hbm, ⟨20, _⟩ => ⟨S3, .f32⟩
  | .hbm, ⟨21, _⟩ => ⟨S1x1, .f32⟩
  | .hbm, ⟨22, _⟩ => ⟨S1x3, .f32⟩
  | .hbm, ⟨23, _⟩ => ⟨S1x3, .f32⟩
  | .hbm, ⟨24, _⟩ => ⟨S_, .f32⟩
  | .hbm, ⟨25, _⟩ => ⟨S3, .f32⟩
  | .hbm, ⟨26, _⟩ => ⟨S3, .f32⟩
  | .local _ .vmem, ⟨0, _⟩ => ⟨S1x29, .f32⟩
  | .local _ .vmem, ⟨1, _⟩ => ⟨S1x128, .f32⟩
  | .local _ .vmem, ⟨2, _⟩ => ⟨S1x128, .f32⟩
  | .local _ .vmem, ⟨3, _⟩ => ⟨S256x29, .f32⟩
  | .local _ .vmem, ⟨4, _⟩ => ⟨S256, .f32⟩
  | .local _ .vmem, ⟨5, _⟩ => ⟨S256x256, .f32⟩
  | .local _ .vmem, ⟨6, _⟩ => ⟨S256, .f32⟩
  | .local _ .vmem, ⟨7, _⟩ => ⟨S128x256, .f32⟩
  | .local _ .vmem, ⟨8, _⟩ => ⟨S128, .f32⟩
  | .local _ .vmem, ⟨9, _⟩ => ⟨S128x128, .f32⟩
  | .local _ .vmem, ⟨10, _⟩ => ⟨S128, .f32⟩
  | .local _ .vmem, ⟨11, _⟩ => ⟨S512x128, .f32⟩
  | .local _ .vmem, ⟨12, _⟩ => ⟨S512, .f32⟩
  | .local _ .vmem, ⟨13, _⟩ => ⟨S512x128, .f32⟩
  | .local _ .vmem, ⟨14, _⟩ => ⟨S512, .f32⟩
  | .local _ .vmem, ⟨15, _⟩ => ⟨S1x128, .f32⟩
  | .local _ .vmem, ⟨16, _⟩ => ⟨S1, .f32⟩
  | .local _ .vmem, ⟨17, _⟩ => ⟨S3x128, .f32⟩
  | .local _ .vmem, ⟨18, _⟩ => ⟨S3, .f32⟩
  | .local _ .vmem, ⟨19, _⟩ => ⟨S3x128, .f32⟩
  | .local _ .vmem, ⟨20, _⟩ => ⟨S3, .f32⟩
  | .local _ .vmem, ⟨21, _⟩ => ⟨S1x1, .f32⟩
  | .local _ .vmem, ⟨22, _⟩ => ⟨S1x3, .f32⟩
  | .local _ .vmem, ⟨23, _⟩ => ⟨S1x3, .f32⟩
  | _, _ => ⟨S1x29, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_v0_0 : Ref sig .tc := ⟨.hbm, 21, rfl⟩
abbrev main_v0_1 : Ref sig .tc := ⟨.hbm, 22, rfl⟩
abbrev main_v0_2 : Ref sig .tc := ⟨.hbm, 23, rfl⟩
abbrev main_v1 : Ref sig .tc := ⟨.hbm, 24, rfl⟩
abbrev main_v2 : Ref sig .tc := ⟨.hbm, 25, rfl⟩
abbrev main_v3 : Ref sig .tc := ⟨.hbm, 26, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_stg10_0 : Ref sig .tc := ⟨.vmem, 10, rfl⟩
abbrev cc0_stg11_0 : Ref sig .tc := ⟨.vmem, 11, rfl⟩
abbrev cc0_stg12_0 : Ref sig .tc := ⟨.vmem, 12, rfl⟩
abbrev cc0_stg13_0 : Ref sig .tc := ⟨.vmem, 13, rfl⟩
abbrev cc0_stg14_0 : Ref sig .tc := ⟨.vmem, 14, rfl⟩
abbrev cc0_stg15_0 : Ref sig .tc := ⟨.vmem, 15, rfl⟩
abbrev cc0_stg16_0 : Ref sig .tc := ⟨.vmem, 16, rfl⟩
abbrev cc0_stg17_0 : Ref sig .tc := ⟨.vmem, 17, rfl⟩
abbrev cc0_stg18_0 : Ref sig .tc := ⟨.vmem, 18, rfl⟩
abbrev cc0_stg19_0 : Ref sig .tc := ⟨.vmem, 19, rfl⟩
abbrev cc0_stg20_0 : Ref sig .tc := ⟨.vmem, 20, rfl⟩
abbrev cc0_stg21_0 : Ref sig .tc := ⟨.vmem, 21, rfl⟩
abbrev cc0_stg22_0 : Ref sig .tc := ⟨.vmem, 22, rfl⟩
abbrev cc0_stg23_0 : Ref sig .tc := ⟨.vmem, 23, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10
abbrev cc0_sem11_0 : DmaSem sig := 11
abbrev cc0_sem12_0 : DmaSem sig := 12
abbrev cc0_sem13_0 : DmaSem sig := 13
abbrev cc0_sem14_0 : DmaSem sig := 14
abbrev cc0_sem15_0 : DmaSem sig := 15
abbrev cc0_sem16_0 : DmaSem sig := 16
abbrev cc0_sem17_0 : DmaSem sig := 17
abbrev cc0_sem18_0 : DmaSem sig := 18
abbrev cc0_sem19_0 : DmaSem sig := 19
abbrev cc0_sem20_0 : DmaSem sig := 20
abbrev cc0_sem21_0 : DmaSem sig := 21
abbrev cc0_sem22_0 : DmaSem sig := 22
abbrev cc0_sem23_0 : DmaSem sig := 23

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_15 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_16 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_17 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_18 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_19 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_20 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_21 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_22 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_23 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .vmem S1x29 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S1x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S256x29 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S256x256 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S256 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S128x256 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S128x128 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S128 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S512x128 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S512 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S512x128 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 1 → Memref sig .tc .vmem S512 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]

abbrev stage0_15 : Fin 1 → Memref sig .tc .vmem S1x128 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false]

abbrev stage0_16 : Fin 1 → Memref sig .tc .vmem S1 .f32 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))
abbrev reads0_16 : Fin grid0.rank → Bool := ![false]

abbrev stage0_17 : Fin 1 → Memref sig .tc .vmem S3x128 .f32 := fun | 0 => Memref.whole cc0_stg17_0 | ⟨_ + 1, h⟩ => absurd h (Nat.not_lt.2 (Nat.le_add_left _ _))
abbrev sem0_17 : Fin 1 → DmaSem sig := fun | 0 => cc0_sem17_0 | ⟨_ + 1, h⟩ => absurd h (Nat.not_lt.2 (Nat.le_add_left _ _))
abbrev reads0_17 : Fin grid0.rank → Bool := ![false]

abbrev stage0_18 : Fin 1 → Memref sig .tc .vmem S3 .f32 := fun | 0 => Memref.whole cc0_stg18_0 | ⟨_ + 1, h⟩ => absurd h (Nat.not_lt.2 (Nat.le_add_left _ _))
abbrev sem0_18 : Fin 1 → DmaSem sig := fun | 0 => cc0_sem18_0 | ⟨_ + 1, h⟩ => absurd h (Nat.not_lt.2 (Nat.le_add_left _ _))
abbrev reads0_18 : Fin grid0.rank → Bool := ![false]

abbrev stage0_19 : Fin 1 → Memref sig .tc .vmem S3x128 .f32 := fun | 0 => Memref.whole cc0_stg19_0 | ⟨_ + 1, h⟩ => absurd h (Nat.not_lt.2 (Nat.le_add_left _ _))
abbrev sem0_19 : Fin 1 → DmaSem sig := fun | 0 => cc0_sem19_0 | ⟨_ + 1, h⟩ => absurd h (Nat.not_lt.2 (Nat.le_add_left _ _))
abbrev reads0_19 : Fin grid0.rank → Bool := ![false]

abbrev stage0_20 : Fin 1 → Memref sig .tc .vmem S3 .f32 := fun | 0 => Memref.whole cc0_stg20_0 | ⟨_ + 1, h⟩ => absurd h (Nat.not_lt.2 (Nat.le_add_left _ _))
abbrev sem0_20 : Fin 1 → DmaSem sig := fun | 0 => cc0_sem20_0 | ⟨_ + 1, h⟩ => absurd h (Nat.not_lt.2 (Nat.le_add_left _ _))
abbrev reads0_20 : Fin grid0.rank → Bool := ![false]

abbrev stage0_21 : Fin 1 → Memref sig .tc .vmem S1x1 .f32 := fun | 0 => Memref.whole cc0_stg21_0 | ⟨_ + 1, h⟩ => absurd h (Nat.not_lt.2 (Nat.le_add_left _ _))
abbrev sem0_21 : Fin 1 → DmaSem sig := fun | 0 => cc0_sem21_0 | ⟨_ + 1, h⟩ => absurd h (Nat.not_lt.2 (Nat.le_add_left _ _))
abbrev reads0_21 : Fin grid0.rank → Bool := ![false]

abbrev stage0_22 : Fin 1 → Memref sig .tc .vmem S1x3 .f32 := fun | 0 => Memref.whole cc0_stg22_0 | ⟨_ + 1, h⟩ => absurd h (Nat.not_lt.2 (Nat.le_add_left _ _))
abbrev sem0_22 : Fin 1 → DmaSem sig := fun | 0 => cc0_sem22_0 | ⟨_ + 1, h⟩ => absurd h (Nat.not_lt.2 (Nat.le_add_left _ _))
abbrev reads0_22 : Fin grid0.rank → Bool := ![false]

abbrev stage0_23 : Fin 1 → Memref sig .tc .vmem S1x3 .f32 := fun | 0 => Memref.whole cc0_stg23_0 | ⟨_ + 1, h⟩ => absurd h (Nat.not_lt.2 (Nat.le_add_left _ _))
abbrev sem0_23 : Fin 1 → DmaSem sig := fun | 0 => cc0_sem23_0 | ⟨_ + 1, h⟩ => absurd h (Nat.not_lt.2 (Nat.le_add_left _ _))
abbrev reads0_23 : Fin grid0.rank → Bool := ![false]

class Facts₀ : Prop where
  inb_S1x29_S1x29_0_0 : ∀ a, (![0, 0] : Fin 2 → Nat) a + S1x29.size a ≤ S1x29.size a
  h_S1x29 : 0 < S1x29.numel
  inb_S1x128_S1x128_0_0 : ∀ a, (![0, 0] : Fin 2 → Nat) a + S1x128.size a ≤ S1x128.size a
  h_S1x128 : 0 < S1x128.numel
  inb_S256x29_S256x29_0_0 : ∀ a, (![0, 0] : Fin 2 → Nat) a + S256x29.size a ≤ S256x29.size a
  h_S256x29 : 0 < S256x29.numel
  inb_S256_S256_0 : ∀ a, (![0] : Fin 1 → Nat) a + S256.size a ≤ S256.size a
  h_S256 : 0 < S256.numel
  shapeCasts_S256_S1x256 : S256.ShapeCasts S1x256
  inb_S256x256_S256x256_0_0 : ∀ a, (![0, 0] : Fin 2 → Nat) a + S256x256.size a ≤ S256x256.size a
  h_S256x256 : 0 < S256x256.numel
  inb_S128x256_S128x256_0_0 : ∀ a, (![0, 0] : Fin 2 → Nat) a + S128x256.size a ≤ S128x256.size a
  h_S128x256 : 0 < S128x256.numel
  inb_S128_S128_0 : ∀ a, (![0] : Fin 1 → Nat) a + S128.size a ≤ S128.size a
  h_S128 : 0 < S128.numel
  shapeCasts_S128_S1x128 : S128.ShapeCasts S1x128
  inb_S128x128_S128x128_0_0 : ∀ a, (![0, 0] : Fin 2 → Nat) a + S128x128.size a ≤ S128x128.size a
  h_S128x128 : 0 < S128x128.numel
  inb_S512x128_S512x128_0_0 : ∀ a, (![0, 0] : Fin 2 → Nat) a + S512x128.size a ≤ S512x128.size a
  h_S512x128 : 0 < S512x128.numel
  inb_S512_S512_0 : ∀ a, (![0] : Fin 1 → Nat) a + S512.size a ≤ S512.size a
  h_S512 : 0 < S512.numel
  shapeCasts_S512_S1x512 : S512.ShapeCasts S1x512
  slices_S1x512_o0_0_S1x128 : S1x512.Slices ![0, 0] S1x128
  slices_S1x512_o0_128_S1x128 : S1x512.Slices ![0, 128] S1x128
  slices_S1x512_o0_256_S1x128 : S1x512.Slices ![0, 256] S1x128
  slices_S1x512_o0_384_S1x128 : S1x512.Slices ![0, 384] S1x128
  inb_S1_S1_0 : ∀ a, (![0] : Fin 1 → Nat) a + S1.size a ≤ S1.size a
  h_S1 : 0 < S1.numel
  shapeCasts_S1_S1x1 : S1.ShapeCasts S1x1
  inb_S3x128_S3x128_0_0 : ∀ a, (![0, 0] : Fin 2 → Nat) a + S3x128.size a ≤ S3x128.size a
  h_S3x128 : 0 < S3x128.numel
  inb_S3_S3_0 : ∀ a, (![0] : Fin 1 → Nat) a + S3.size a ≤ S3.size a
  h_S3 : 0 < S3.numel
  shapeCasts_S3_S1x3 : S3.ShapeCasts S1x3
  inb_S1x1_S1x1_0_0 : ∀ a, (![0, 0] : Fin 2 → Nat) a + S1x1.size a ≤ S1x1.size a
  h_S1x1 : 0 < S1x1.numel
  inb_S1x3_S1x3_0_0 : ∀ a, (![0, 0] : Fin 2 → Nat) a + S1x3.size a ≤ S1x3.size a
  h_S1x3 : 0 < S1x3.numel
  shapeCasts_S1x1_S_ : S1x1.ShapeCasts S_
  shapeCasts_S1x3_S3 : S1x3.ShapeCasts S3
  dot_S1x29_S256x29_S1x256_1_1_0_0_n_n_wf : DotDims.WF S1x29 S256x29 S1x256 [1] [1] [0] [0] [] []
  dot_S1x256_S256x256_S1x256_1_1_0_0_n_n_wf : DotDims.WF S1x256 S256x256 S1x256 [1] [1] [0] [0] [] []
  dot_S1x256_S128x256_S1x128_1_1_0_0_n_n_wf : DotDims.WF S1x256 S128x256 S1x128 [1] [1] [0] [0] [] []
  dot_S1x128_S128x128_S1x128_1_1_0_0_n_n_wf : DotDims.WF S1x128 S128x128 S1x128 [1] [1] [0] [0] [] []
  dot_S1x128_S512x128_S1x512_1_1_0_0_n_n_wf : DotDims.WF S1x128 S512x128 S1x512 [1] [1] [0] [0] [] []
  dot_S1x128_S1x128_S1x1_1_1_0_0_n_n_wf : DotDims.WF S1x128 S1x128 S1x1 [1] [1] [0] [0] [] []
  dot_S1x128_S3x128_S1x3_1_1_0_0_n_n_wf : DotDims.WF S1x128 S3x128 S1x3 [1] [1] [0] [0] [] []
  hrank0 : 0 < grid0.rank
  hstage0_0 : ∀ j, (stage0_0 j).IsWhole
  nbuf0_0 : grid0.bufCount reads0_0 true = 1
  hreads0_0 : ∀ i i' : grid0.Coords, (∀ a, reads0_0 a = true → i a = i' a) → cc0_transform_0 i = cc0_transform_0 i'
  hinb0_0 : ∀ (i : grid0.Coords) a, (cc0_transform_0 i a + 1) * S1x29.size a ≤ S1x29.size a
  hwx0_0 : ∀ i : grid0.Coords, EltTy.bits .f32 = 32 ∨ (Rect.block (s := S1x29) S1x29.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1x128.size a ≤ S1x128.size a
  hwx0_1 : ∀ i : grid0.Coords, EltTy.bits .f32 = 32 ∨ (Rect.block (s := S1x128) S1x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x128.size a ≤ S1x128.size a
  hwx0_2 : ∀ i : grid0.Coords, EltTy.bits .f32 = 32 ∨ (Rect.block (s := S1x128) S1x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S256x29.size a ≤ S256x29.size a
  hwx0_3 : ∀ i : grid0.Coords, EltTy.bits .f32 = 32 ∨ (Rect.block (s := S256x29) S256x29.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S256.size a ≤ S256.size a
  hwx0_4 : ∀ i : grid0.Coords, EltTy.bits .f32 = 32 ∨ (Rect.block (s := S256) S256.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S256x256.size a ≤ S256x256.size a
  hwx0_5 : ∀ i : grid0.Coords, EltTy.bits .f32 = 32 ∨ (Rect.block (s := S256x256) S256x256.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S256.size a ≤ S256.size a
  hwx0_6 : ∀ i : grid0.Coords, EltTy.bits .f32 = 32 ∨ (Rect.block (s := S256) S256.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S128x256.size a ≤ S128x256.size a
  hwx0_7 : ∀ i : grid0.Coords, EltTy.bits .f32 = 32 ∨ (Rect.block (s := S128x256) S128x256.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S128.size a ≤ S128.size a
  hwx0_8 : ∀ i : grid0.Coords, EltTy.bits .f32 = 32 ∨ (Rect.block (s := S128) S128.size (cc0_transform_8 i) (hinb0_8 i)).WholeWords (EltTy.packing .f32)
  hstage0_9 : ∀ j, (stage0_9 j).IsWhole
  nbuf0_9 : grid0.bufCount reads0_9 true = 1
  hreads0_9 : ∀ i i' : grid0.Coords, (∀ a, reads0_9 a = true → i a = i' a) → cc0_transform_9 i = cc0_transform_9 i'
  hinb0_9 : ∀ (i : grid0.Coords) a, (cc0_transform_9 i a + 1) * S128x128.size a ≤ S128x128.size a
  hwx0_9 : ∀ i : grid0.Coords, EltTy.bits .f32 = 32 ∨ (Rect.block (s := S128x128) S128x128.size (cc0_transform_9 i) (hinb0_9 i)).WholeWords (EltTy.packing .f32)
  hstage0_10 : ∀ j, (stage0_10 j).IsWhole
  nbuf0_10 : grid0.bufCount reads0_10 true = 1
  hreads0_10 : ∀ i i' : grid0.Coords, (∀ a, reads0_10 a = true → i a = i' a) → cc0_transform_10 i = cc0_transform_10 i'
  hinb0_10 : ∀ (i : grid0.Coords) a, (cc0_transform_10 i a + 1) * S128.size a ≤ S128.size a
  hwx0_10 : ∀ i : grid0.Coords, EltTy.bits .f32 = 32 ∨ (Rect.block (s := S128) S128.size (cc0_transform_10 i) (hinb0_10 i)).WholeWords (EltTy.packing .f32)
  hstage0_11 : ∀ j, (stage0_11 j).IsWhole
  nbuf0_11 : grid0.bufCount reads0_11 true = 1
  hreads0_11 : ∀ i i' : grid0.Coords, (∀ a, reads0_11 a = true → i a = i' a) → cc0_transform_11 i = cc0_transform_11 i'
  hinb0_11 : ∀ (i : grid0.Coords) a, (cc0_transform_11 i a + 1) * S512x128.size a ≤ S512x128.size a
  hwx0_11 : ∀ i : grid0.Coords, EltTy.bits .f32 = 32 ∨ (Rect.block (s := S512x128) S512x128.size (cc0_transform_11 i) (hinb0_11 i)).WholeWords (EltTy.packing .f32)
  hstage0_12 : ∀ j, (stage0_12 j).IsWhole
  nbuf0_12 : grid0.bufCount reads0_12 true = 1
  hreads0_12 : ∀ i i' : grid0.Coords, (∀ a, reads0_12 a = true → i a = i' a) → cc0_transform_12 i = cc0_transform_12 i'
  hinb0_12 : ∀ (i : grid0.Coords) a, (cc0_transform_12 i a + 1) * S512.size a ≤ S512.size a
  hwx0_12 : ∀ i : grid0.Coords, EltTy.bits .f32 = 32 ∨ (Rect.block (s := S512) S512.size (cc0_transform_12 i) (hinb0_12 i)).WholeWords (EltTy.packing .f32)
  hstage0_13 : ∀ j, (stage0_13 j).IsWhole
  nbuf0_13 : grid0.bufCount reads0_13 true = 1
  hreads0_13 : ∀ i i' : grid0.Coords, (∀ a, reads0_13 a = true → i a = i' a) → cc0_transform_13 i = cc0_transform_13 i'
  hinb0_13 : ∀ (i : grid0.Coords) a, (cc0_transform_13 i a + 1) * S512x128.size a ≤ S512x128.size a
  hwx0_13 : ∀ i : grid0.Coords, EltTy.bits .f32 = 32 ∨ (Rect.block (s := S512x128) S512x128.size (cc0_transform_13 i) (hinb0_13 i)).WholeWords (EltTy.packing .f32)
  hstage0_14 : ∀ j, (stage0_14 j).IsWhole
  nbuf0_14 : grid0.bufCount reads0_14 true = 1
  hreads0_14 : ∀ i i' : grid0.Coords, (∀ a, reads0_14 a = true → i a = i' a) → cc0_transform_14 i = cc0_transform_14 i'
  hinb0_14 : ∀ (i : grid0.Coords) a, (cc0_transform_14 i a + 1) * S512.size a ≤ S512.size a
  hwx0_14 : ∀ i : grid0.Coords, EltTy.bits .f32 = 32 ∨ (Rect.block (s := S512) S512.size (cc0_transform_14 i) (hinb0_14 i)).WholeWords (EltTy.packing .f32)
  hstage0_15 : ∀ j, (stage0_15 j).IsWhole
  nbuf0_15 : grid0.bufCount reads0_15 true = 1
  hreads0_15 : ∀ i i' : grid0.Coords, (∀ a, reads0_15 a = true → i a = i' a) → cc0_transform_15 i = cc0_transform_15 i'
  hinb0_15 : ∀ (i : grid0.Coords) a, (cc0_transform_15 i a + 1) * S1x128.size a ≤ S1x128.size a
  hwx0_15 : ∀ i : grid0.Coords, EltTy.bits .f32 = 32 ∨ (Rect.block (s := S1x128) S1x128.size (cc0_transform_15 i) (hinb0_15 i)).WholeWords (EltTy.packing .f32)
  hstage0_16 : ∀ j, (stage0_16 j).IsWhole
  nbuf0_16 : grid0.bufCount reads0_16 true = 1
  hreads0_16 : ∀ i i' : grid0.Coords, (∀ a, reads0_16 a = true → i a = i' a) → cc0_transform_16 i = cc0_transform_16 i'
  hinb0_16 : ∀ (i : grid0.Coords) a, (cc0_transform_16 i a + 1) * S1.size a ≤ S1.size a
  hwx0_16 : ∀ i : grid0.Coords, EltTy.bits .f32 = 32 ∨ (Rect.block (s := S1) S1.size (cc0_transform_16 i) (hinb0_16 i)).WholeWords (EltTy.packing .f32)
  hstage0_17 : ∀ j, (stage0_17 j).IsWhole
  nbuf0_17 : grid0.bufCount reads0_17 true = 1
  hreads0_17 : ∀ i i' : grid0.Coords, (∀ a, reads0_17 a = true → i a = i' a) → cc0_transform_17 i = cc0_transform_17 i'
  hinb0_17 : ∀ (i : grid0.Coords) a, (cc0_transform_17 i a + 1) * S3x128.size a ≤ S3x128.size a
  hwx0_17 : ∀ i : grid0.Coords, EltTy.bits .f32 = 32 ∨ (Rect.block (s := S3x128) S3x128.size (cc0_transform_17 i) (hinb0_17 i)).WholeWords (EltTy.packing .f32)
  hstage0_18 : ∀ j, (stage0_18 j).IsWhole
  nbuf0_18 : grid0.bufCount reads0_18 true = 1
  hreads0_18 : ∀ i i' : grid0.Coords, (∀ a, reads0_18 a = true → i a = i' a) → cc0_transform_18 i = cc0_transform_18 i'
  hinb0_18 : ∀ (i : grid0.Coords) a, (cc0_transform_18 i a + 1) * S3.size a ≤ S3.size a
  hwx0_18 : ∀ i : grid0.Coords, EltTy.bits .f32 = 32 ∨ (Rect.block (s := S3) S3.size (cc0_transform_18 i) (hinb0_18 i)).WholeWords (EltTy.packing .f32)
  hstage0_19 : ∀ j, (stage0_19 j).IsWhole
  nbuf0_19 : grid0.bufCount reads0_19 true = 1
  hreads0_19 : ∀ i i' : grid0.Coords, (∀ a, reads0_19 a = true → i a = i' a) → cc0_transform_19 i = cc0_transform_19 i'
  hinb0_19 : ∀ (i : grid0.Coords) a, (cc0_transform_19 i a + 1) * S3x128.size a ≤ S3x128.size a
  hwx0_19 : ∀ i : grid0.Coords, EltTy.bits .f32 = 32 ∨ (Rect.block (s := S3x128) S3x128.size (cc0_transform_19 i) (hinb0_19 i)).WholeWords (EltTy.packing .f32)
  hstage0_20 : ∀ j, (stage0_20 j).IsWhole
  nbuf0_20 : grid0.bufCount reads0_20 true = 1
  hreads0_20 : ∀ i i' : grid0.Coords, (∀ a, reads0_20 a = true → i a = i' a) → cc0_transform_20 i = cc0_transform_20 i'
  hinb0_20 : ∀ (i : grid0.Coords) a, (cc0_transform_20 i a + 1) * S3.size a ≤ S3.size a
  hwx0_20 : ∀ i : grid0.Coords, EltTy.bits .f32 = 32 ∨ (Rect.block (s := S3) S3.size (cc0_transform_20 i) (hinb0_20 i)).WholeWords (EltTy.packing .f32)
  hstage0_21 : ∀ j, (stage0_21 j).IsWhole
  nbuf0_21 : grid0.bufCount reads0_21 true = 1
  hreads0_21 : ∀ i i' : grid0.Coords, (∀ a, reads0_21 a = true → i a = i' a) → cc0_transform_21 i = cc0_transform_21 i'
  hinb0_21 : ∀ (i : grid0.Coords) a, (cc0_transform_21 i a + 1) * S1x1.size a ≤ S1x1.size a
  hwx0_21 : ∀ i : grid0.Coords, EltTy.bits .f32 = 32 ∨ (Rect.block (s := S1x1) S1x1.size (cc0_transform_21 i) (hinb0_21 i)).WholeWords (EltTy.packing .f32)
  hstage0_22 : ∀ j, (stage0_22 j).IsWhole
  nbuf0_22 : grid0.bufCount reads0_22 true = 1
  hreads0_22 : ∀ i i' : grid0.Coords, (∀ a, reads0_22 a = true → i a = i' a) → cc0_transform_22 i = cc0_transform_22 i'
  hinb0_22 : ∀ (i : grid0.Coords) a, (cc0_transform_22 i a + 1) * S1x3.size a ≤ S1x3.size a
  hwx0_22 : ∀ i : grid0.Coords, EltTy.bits .f32 = 32 ∨ (Rect.block (s := S1x3) S1x3.size (cc0_transform_22 i) (hinb0_22 i)).WholeWords (EltTy.packing .f32)
  hstage0_23 : ∀ j, (stage0_23 j).IsWhole
  nbuf0_23 : grid0.bufCount reads0_23 true = 1
  hreads0_23 : ∀ i i' : grid0.Coords, (∀ a, reads0_23 a = true → i a = i' a) → cc0_transform_23 i = cc0_transform_23 i'
  hinb0_23 : ∀ (i : grid0.Coords) a, (cc0_transform_23 i a + 1) * S1x3.size a ≤ S1x3.size a
  hwx0_23 : ∀ i : grid0.Coords, EltTy.bits .f32 = 32 ∨ (Rect.block (s := S1x3) S1x3.size (cc0_transform_23 i) (hinb0_23 i)).WholeWords (EltTy.packing .f32)

variable [Facts₀]

def dot_S1x29_S256x29_S1x256_1_1_0_0_n_n : DotDims S1x29 S256x29 S1x256 where
  lhsContracting := [1]
  rhsContracting := [1]
  lhsNonContracting := [0]
  rhsNonContracting := [0]
  lhsBatch := []
  rhsBatch := []
  wf := dot_S1x29_S256x29_S1x256_1_1_0_0_n_n_wf
def dot_S1x256_S256x256_S1x256_1_1_0_0_n_n : DotDims S1x256 S256x256 S1x256 where
  lhsContracting := [1]
  rhsContracting := [1]
  lhsNonContracting := [0]
  rhsNonContracting := [0]
  lhsBatch := []
  rhsBatch := []
  wf := dot_S1x256_S256x256_S1x256_1_1_0_0_n_n_wf
def dot_S1x256_S128x256_S1x128_1_1_0_0_n_n : DotDims S1x256 S128x256 S1x128 where
  lhsContracting := [1]
  rhsContracting := [1]
  lhsNonContracting := [0]
  rhsNonContracting := [0]
  lhsBatch := []
  rhsBatch := []
  wf := dot_S1x256_S128x256_S1x128_1_1_0_0_n_n_wf
def dot_S1x128_S128x128_S1x128_1_1_0_0_n_n : DotDims S1x128 S128x128 S1x128 where
  lhsContracting := [1]
  rhsContracting := [1]
  lhsNonContracting := [0]
  rhsNonContracting := [0]
  lhsBatch := []
  rhsBatch := []
  wf := dot_S1x128_S128x128_S1x128_1_1_0_0_n_n_wf
def dot_S1x128_S512x128_S1x512_1_1_0_0_n_n : DotDims S1x128 S512x128 S1x512 where
  lhsContracting := [1]
  rhsContracting := [1]
  lhsNonContracting := [0]
  rhsNonContracting := [0]
  lhsBatch := []
  rhsBatch := []
  wf := dot_S1x128_S512x128_S1x512_1_1_0_0_n_n_wf
def dot_S1x128_S1x128_S1x1_1_1_0_0_n_n : DotDims S1x128 S1x128 S1x1 where
  lhsContracting := [1]
  rhsContracting := [1]
  lhsNonContracting := [0]
  rhsNonContracting := [0]
  lhsBatch := []
  rhsBatch := []
  wf := dot_S1x128_S1x128_S1x1_1_1_0_0_n_n_wf
def dot_S1x128_S3x128_S1x3_1_1_0_0_n_n : DotDims S1x128 S3x128 S1x3 where
  lhsContracting := [1]
  rhsContracting := [1]
  lhsNonContracting := [0]
  rhsNonContracting := [0]
  lhsBatch := []
  rhsBatch := []
  wf := dot_S1x128_S3x128_S1x3_1_1_0_0_n_n_wf

abbrev win0_0 : Pipeline.Window sig grid0 :=
  Pipeline.Window.ofSpec (Memref.whole main_arg0) S1x29.size cc0_transform_0 reads0_0 false true 1 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S1x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S256x29.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg4) S256.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg5) S256x256.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_arg6) S256.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_arg7) S128x256.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_arg8) S128.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_arg9) S128x128.size cc0_transform_9 reads0_9 false true 1 stage0_9 sem0_9
    hrank0 hreads0_9 hinb0_9 nbuf0_9 (Memref.isWhole_whole _) hwx0_9 hstage0_9

abbrev win0_10 : Pipeline.Window sig grid0 :=
  Pipeline.Window.ofSpec (Memref.whole main_arg10) S128.size cc0_transform_10 reads0_10 false true 1 stage0_10 sem0_10
    hrank0 hreads0_10 hinb0_10 nbuf0_10 (Memref.isWhole_whole _) hwx0_10 hstage0_10

abbrev win0_11 : Pipeline.Window sig grid0 :=
  Pipeline.Window.ofSpec (Memref.whole main_arg11) S512x128.size cc0_transform_11 reads0_11 false true 1 stage0_11 sem0_11
    hrank0 hreads0_11 hinb0_11 nbuf0_11 (Memref.isWhole_whole _) hwx0_11 hstage0_11

abbrev win0_12 : Pipeline.Window sig grid0 :=
  Pipeline.Window.ofSpec (Memref.whole main_arg12) S512.size cc0_transform_12 reads0_12 false true 1 stage0_12 sem0_12
    hrank0 hreads0_12 hinb0_12 nbuf0_12 (Memref.isWhole_whole _) hwx0_12 hstage0_12

abbrev win0_13 : Pipeline.Window sig grid0 :=
  Pipeline.Window.ofSpec (Memref.whole main_arg13) S512x128.size cc0_transform_13 reads0_13 false true 1 stage0_13 sem0_13
    hrank0 hreads0_13 hinb0_13 nbuf0_13 (Memref.isWhole_whole _) hwx0_13 hstage0_13

abbrev win0_14 : Pipeline.Window sig grid0 :=
  Pipeline.Window.ofSpec (Memref.whole main_arg14) S512.size cc0_transform_14 reads0_14 false true 1 stage0_14 sem0_14
    hrank0 hreads0_14 hinb0_14 nbuf0_14 (Memref.isWhole_whole _) hwx0_14 hstage0_14

abbrev win0_15 : Pipeline.Window sig grid0 :=
  Pipeline.Window.ofSpec (Memref.whole main_arg15) S1x128.size cc0_transform_15 reads0_15 false true 1 stage0_15 sem0_15
    hrank0 hreads0_15 hinb0_15 nbuf0_15 (Memref.isWhole_whole _) hwx0_15 hstage0_15

abbrev win0_16 : Pipeline.Window sig grid0 :=
  Pipeline.Window.ofSpec (Memref.whole main_arg16) S1.size cc0_transform_16 reads0_16 false true 1 stage0_16 sem0_16
    hrank0 hreads0_16 hinb0_16 nbuf0_16 (Memref.isWhole_whole _) hwx0_16 hstage0_16

abbrev win0_17 : Pipeline.Window sig grid0 :=
  Pipeline.Window.ofSpec (Memref.whole main_arg17) S3x128.size cc0_transform_17 reads0_17 false true 1 stage0_17 sem0_17
    hrank0 hreads0_17 hinb0_17 nbuf0_17 (Memref.isWhole_whole _) hwx0_17 hstage0_17

abbrev win0_18 : Pipeline.Window sig grid0 :=
  Pipeline.Window.ofSpec (Memref.whole main_arg18) S3.size cc0_transform_18 reads0_18 false true 1 stage0_18 sem0_18
    hrank0 hreads0_18 hinb0_18 nbuf0_18 (Memref.isWhole_whole _) hwx0_18 hstage0_18

abbrev win0_19 : Pipeline.Window sig grid0 :=
  Pipeline.Window.ofSpec (Memref.whole main_arg19) S3x128.size cc0_transform_19 reads0_19 false true 1 stage0_19 sem0_19
    hrank0 hreads0_19 hinb0_19 nbuf0_19 (Memref.isWhole_whole _) hwx0_19 hstage0_19

abbrev win0_20 : Pipeline.Window sig grid0 :=
  Pipeline.Window.ofSpec (Memref.whole main_arg20) S3.size cc0_transform_20 reads0_20 false true 1 stage0_20 sem0_20
    hrank0 hreads0_20 hinb0_20 nbuf0_20 (Memref.isWhole_whole _) hwx0_20 hstage0_20

abbrev win0_21 : Pipeline.Window sig grid0 :=
  Pipeline.Window.ofSpec (Memref.whole main_v0_0) S1x1.size cc0_transform_21 reads0_21 true true 1 stage0_21 sem0_21
    hrank0 hreads0_21 hinb0_21 nbuf0_21 (Memref.isWhole_whole _) hwx0_21 hstage0_21

abbrev win0_22 : Pipeline.Window sig grid0 :=
  Pipeline.Window.ofSpec (Memref.whole main_v0_1) S1x3.size cc0_transform_22 reads0_22 true true 1 stage0_22 sem0_22
    hrank0 hreads0_22 hinb0_22 nbuf0_22 (Memref.isWhole_whole _) hwx0_22 hstage0_22

abbrev win0_23 : Pipeline.Window sig grid0 :=
  Pipeline.Window.ofSpec (Memref.whole main_v0_2) S1x3.size cc0_transform_23 reads0_23 true true 1 stage0_23 sem0_23
    hrank0 hreads0_23 hinb0_23 nbuf0_23 (Memref.isWhole_whole _) hwx0_23 hstage0_23

abbrev win0 : Fin 24 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | 11 => win0_11 | 12 => win0_12 | 13 => win0_13 | 14 => win0_14 | 15 => win0_15 | 16 => win0_16 | 17 => win0_17 | 18 => win0_18 | 19 => win0_19 | 20 => win0_20 | 21 => win0_21 | 22 => win0_22 | 23 => win0_23 | ⟨_ + 24, h⟩ => absurd h (Nat.not_lt.2 (Nat.le_add_left _ _))
abbrev spec0 : Fin 24 → Pipeline.WinSpec sig grid0.rank := fun w => (win0 w).toWinSpec

class Facts : Prop extends Facts₀ where

variable [Facts]
-- ==== ReferenceIdeal.lean ====
abbrev S1x29 : Shape := ⟨2, ![1, 29]⟩
abbrev S1x128 : Shape := ⟨2, ![1, 128]⟩
abbrev S256x29 : Shape := ⟨2, ![256, 29]⟩
abbrev S256 : Shape := ⟨1, ![256]⟩
abbrev S256x256 : Shape := ⟨2, ![256, 256]⟩
abbrev S128x256 : Shape := ⟨2, ![128, 256]⟩
abbrev S128 : Shape := ⟨1, ![128]⟩
abbrev S128x128 : Shape := ⟨2, ![128, 128]⟩
abbrev S512x128 : Shape := ⟨2, ![512, 128]⟩
abbrev S512 : Shape := ⟨1, ![512]⟩
abbrev S1 : Shape := ⟨1, ![1]⟩
abbrev S3x128 : Shape := ⟨2, ![3, 128]⟩
abbrev S3 : Shape := ⟨1, ![3]⟩
abbrev S29x256 : Shape := ⟨2, ![29, 256]⟩
abbrev S1x256 : Shape := ⟨2, ![1, 256]⟩
abbrev S_ : Shape := ⟨0, ![]⟩
abbrev S256x128 : Shape := ⟨2, ![256, 128]⟩
abbrev S128x512 : Shape := ⟨2, ![128, 512]⟩
abbrev S1x512 : Shape := ⟨2, ![1, 512]⟩
abbrev S128x1 : Shape := ⟨2, ![128, 1]⟩
abbrev S1x1 : Shape := ⟨2, ![1, 1]⟩
abbrev S128x3 : Shape := ⟨2, ![128, 3]⟩
abbrev S1x3 : Shape := ⟨2, ![1, 3]⟩

abbrev nBuf : Space → Nat
  | .hbm => 128
  | .vmem => 0
  | .smem => 0
  | _ => 0

abbrev bufTy : (tb : Table) → Fin (tcTables nBuf tb) → BufTy
  | .hbm, ⟨0, _⟩ => ⟨S1x29, .f32⟩
  | .hbm, ⟨1, _⟩ => ⟨S1x128, .f32⟩
  | .hbm, ⟨2, _⟩ => ⟨S1x128, .f32⟩
  | .hbm, ⟨3, _⟩ => ⟨S256x29, .f32⟩
  | .hbm, ⟨4, _⟩ => ⟨S256, .f32⟩
  | .hbm, ⟨5, _⟩ => ⟨S256x256, .f32⟩
  | .hbm, ⟨6, _⟩ => ⟨S256, .f32⟩
  | .hbm, ⟨7, _⟩ => ⟨S128x256, .f32⟩
  | .hbm, ⟨8, _⟩ => ⟨S128, .f32⟩
  | .hbm, ⟨9, _⟩ => ⟨S128x128, .f32⟩
  | .hbm, ⟨10, _⟩ => ⟨S128, .f32⟩
  | .hbm, ⟨11, _⟩ => ⟨S512x128, .f32⟩
  | .hbm, ⟨12, _⟩ => ⟨S512, .f32⟩
  | .hbm, ⟨13, _⟩ => ⟨S512x128, .f32⟩
  | .hbm, ⟨14, _⟩ => ⟨S512, .f32⟩
  | .hbm, ⟨15, _⟩ => ⟨S1x128, .f32⟩
  | .hbm, ⟨16, _⟩ => ⟨S1, .f32⟩
  | .hbm, ⟨17, _⟩ => ⟨S3x128, .f32⟩
  | .hbm, ⟨18, _⟩ => ⟨S3, .f32⟩
  | .hbm, ⟨19, _⟩ => ⟨S3x128, .f32⟩
  | .hbm, ⟨20, _⟩ => ⟨S3, .f32⟩
  | .hbm, ⟨21, _⟩ => ⟨S29x256, .f32⟩
  | .hbm, ⟨22, _⟩ => ⟨S1x256, .f32⟩
  | .hbm, ⟨23, _⟩ => ⟨S1x256, .f32⟩
  | .hbm, ⟨24, _⟩ => ⟨S1x256, .f32⟩
  | .hbm, ⟨25, _⟩ => ⟨S_, .f32⟩
  | .hbm, ⟨26, _⟩ => ⟨S1x256, .f32⟩
  | .hbm, ⟨27, _⟩ => ⟨S1x256, .i1⟩
  | .hbm, ⟨28, _⟩ => ⟨S_, .f32⟩
  | .hbm, ⟨29, _⟩ => ⟨S1x256, .f32⟩
  | .hbm, ⟨30, _⟩ => ⟨S1x256, .f32⟩
  | .hbm, ⟨31, _⟩ => ⟨S1x256, .f32⟩
  | .hbm, ⟨32, _⟩ => ⟨S256x256, .f32⟩
  | .hbm, ⟨33, _⟩ => ⟨S1x256, .f32⟩
  | .hbm, ⟨34, _⟩ => ⟨S1x256, .f32⟩
  | .hbm, ⟨35, _⟩ => ⟨S1x256, .f32⟩
  | .hbm, ⟨36, _⟩ => ⟨S_, .f32⟩
  | .hbm, ⟨37, _⟩ => ⟨S1x256, .f32⟩
  | .hbm, ⟨38, _⟩ => ⟨S1x256, .i1⟩
  | .hbm, ⟨39, _⟩ => ⟨S_, .f32⟩
  | .hbm, ⟨40, _⟩ => ⟨S1x256, .f32⟩
  | .hbm, ⟨41, _⟩ => ⟨S1x256, .f32⟩
  | .hbm, ⟨42, _⟩ => ⟨S1x256, .f32⟩
  | .hbm, ⟨43, _⟩ => ⟨S256x128, .f32⟩
  | .hbm, ⟨44, _⟩ => ⟨S1x128, .f32⟩
  | .hbm, ⟨45, _⟩ => ⟨S1x128, .f32⟩
  | .hbm, ⟨46, _⟩ => ⟨S1x128, .f32⟩
  | .hbm, ⟨47, _⟩ => ⟨S_, .f32⟩
  | .hbm, ⟨48, _⟩ => ⟨S1x128, .f32⟩
  | .hbm, ⟨49, _⟩ => ⟨S1x128, .i1⟩
  | .hbm, ⟨50, _⟩ => ⟨S_, .f32⟩
  | .hbm, ⟨51, _⟩ => ⟨S1x128, .f32⟩
  | .hbm, ⟨52, _⟩ => ⟨S1x128, .f32⟩
  | .hbm, ⟨53, _⟩ => ⟨S1x128, .f32⟩
  | .hbm, ⟨54, _⟩ => ⟨S128x128, .f32⟩
  | .hbm, ⟨55, _⟩ => ⟨S1x128, .f32⟩
  | .hbm, ⟨56, _⟩ => ⟨S1x128, .f32⟩
  | .hbm, ⟨57, _⟩ => ⟨S1x128, .f32⟩
  | .hbm, ⟨58, _⟩ => ⟨S_, .f32⟩
  | .hbm, ⟨59, _⟩ => ⟨S1x128, .f32⟩
  | .hbm, ⟨60, _⟩ => ⟨S1x128, .i1⟩
  | .hbm, ⟨61, _⟩ => ⟨S_, .f32⟩
  | .hbm, ⟨62, _⟩ => ⟨S1x128, .f32⟩
  | .hbm, ⟨63, _⟩ => ⟨S1x128, .f32⟩
  | .hbm, ⟨64, _⟩ => ⟨S1x128, .f32⟩
  | .hbm, ⟨65, _⟩ => ⟨S128x512, .f32⟩
  | .hbm, ⟨66, _⟩ => ⟨S1x512, .f32⟩
  | .hbm, ⟨67, _⟩ => ⟨S1x512, .f32⟩
  | .hbm, ⟨68, _⟩ => ⟨S1x512, .f32⟩
  | .hbm, ⟨69, _⟩ => ⟨S128x512, .f32⟩
  | .hbm, ⟨70, _⟩ => ⟨S1x512, .f32⟩
  | .hbm, ⟨71, _⟩ => ⟨S1x512, .f32⟩
  | .hbm, ⟨72, _⟩ => ⟨S1x512, .f32⟩
  | .hbm, ⟨73, _⟩ => ⟨S1x512, .f32⟩
  | .hbm, ⟨74, _⟩ => ⟨S1x128, .f32⟩
  | .hbm, ⟨75, _⟩ => ⟨S1x128, .f32⟩
  | .hbm, ⟨76, _⟩ => ⟨S1x128, .f32⟩
  | .hbm, ⟨77, _⟩ => ⟨S1x128, .f32⟩
  | .hbm, ⟨78, _⟩ => ⟨S1x128, .f32⟩
  | .hbm, ⟨79, _⟩ => ⟨S1x128, .f32⟩
  | .hbm, ⟨80, _⟩ => ⟨S_, .f32⟩
  | .hbm, ⟨81, _⟩ => ⟨S1x128, .f32⟩
  | .hbm, ⟨82, _⟩ => ⟨S1x128, .f32⟩
  | .hbm, ⟨83, _⟩ => ⟨S_, .f32⟩
  | .hbm, ⟨84, _⟩ => ⟨S1x128, .f32⟩
  | .hbm, ⟨85, _⟩ => ⟨S1x128, .f32⟩
  | .hbm, ⟨86, _⟩ => ⟨S1x128, .f32⟩
  | .hbm, ⟨87, _⟩ => ⟨S1x128, .f32⟩
  | .hbm, ⟨88, _⟩ => ⟨S1x128, .f32⟩
  | .hbm, ⟨89, _⟩ => ⟨S_, .f32⟩
  | .hbm, ⟨90, _⟩ => ⟨S1x128, .f32⟩
  | .hbm, ⟨91, _⟩ => ⟨S1x128, .f32⟩
  | .hbm, ⟨92, _⟩ => ⟨S_, .f32⟩
  | .hbm, ⟨93, _⟩ => ⟨S1x128, .f32⟩
  | .hbm, ⟨94, _⟩ => ⟨S1x128, .f32⟩
  | .hbm, ⟨95, _⟩ => ⟨S1x128, .f32⟩
  | .hbm, ⟨96, _⟩ => ⟨S1x128, .f32⟩
  | .hbm, ⟨97, _⟩ => ⟨S1x128, .f32⟩
  | .hbm, ⟨98, _⟩ => ⟨S1x128, .f32⟩
  | .hbm, ⟨99, _⟩ => ⟨S1x128, .f32⟩
  | .hbm, ⟨100, _⟩ => ⟨S_, .f32⟩
  | .hbm, ⟨101, _⟩ => ⟨S1x128, .f32⟩
  | .hbm, ⟨102, _⟩ => ⟨S1x128, .f32⟩
  | .hbm, ⟨103, _⟩ => ⟨S_, .f32⟩
  | .hbm, ⟨104, _⟩ => ⟨S1x128, .f32⟩
  | .hbm, ⟨105, _⟩ => ⟨S1x128, .f32⟩
  | .hbm, ⟨106, _⟩ => ⟨S1x128, .f32⟩
  | .hbm, ⟨107, _⟩ => ⟨S1x128, .f32⟩
  | .hbm, ⟨108, _⟩ => ⟨S128x1, .f32⟩
  | .hbm, ⟨109, _⟩ => ⟨S1x1, .f32⟩
  | .hbm, ⟨110, _⟩ => ⟨S1x1, .f32⟩
  | .hbm, ⟨111, _⟩ => ⟨S1x1, .f32⟩
  | .hbm, ⟨112, _⟩ => ⟨S_, .f32⟩
  | .hbm, ⟨113, _⟩ => ⟨S128x3, .f32⟩
  | .hbm, ⟨114, _⟩ => ⟨S1x3, .f32⟩
  | .hbm, ⟨115, _⟩ => ⟨S1x3, .f32⟩
  | .hbm, ⟨116, _⟩ => ⟨S1x3, .f32⟩
  | .hbm, ⟨117, _⟩ => ⟨S1x3, .f32⟩
  | .hbm, ⟨118, _⟩ => ⟨S_, .f32⟩
  | .hbm, ⟨119, _⟩ => ⟨S1x3, .f32⟩
  | .hbm, ⟨120, _⟩ => ⟨S1x3, .f32⟩
  | .hbm, ⟨121, _⟩ => ⟨S1x3, .f32⟩
  | .hbm, ⟨122, _⟩ => ⟨S3, .f32⟩
  | .hbm, ⟨123, _⟩ => ⟨S128x3, .f32⟩
  | .hbm, ⟨124, _⟩ => ⟨S1x3, .f32⟩
  | .hbm, ⟨125, _⟩ => ⟨S1x3, .f32⟩
  | .hbm, ⟨126, _⟩ => ⟨S1x3, .f32⟩
  | .hbm, ⟨127, _⟩ => ⟨S3, .f32⟩
  | _, _ => ⟨S1x29, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_v0 : Ref sig .tc := ⟨.hbm, 21, rfl⟩
abbrev main_v1 : Ref sig .tc := ⟨.hbm, 22, rfl⟩
abbrev main_v2 : Ref sig .tc := ⟨.hbm, 23, rfl⟩
abbrev main_v3 : Ref sig .tc := ⟨.hbm, 24, rfl⟩
abbrev main_cst : Ref sig .tc := ⟨.hbm, 25, rfl⟩
abbrev main_v4 : Ref sig .tc := ⟨.hbm, 26, rfl⟩
abbrev main_v5 : Ref sig .tc := ⟨.hbm, 27, rfl⟩
abbrev main_cst_0 : Ref sig .tc := ⟨.hbm, 28, rfl⟩
abbrev main_v6 : Ref sig .tc := ⟨.hbm, 29, rfl⟩
abbrev main_v7 : Ref sig .tc := ⟨.hbm, 30, rfl⟩
abbrev main_v8 : Ref sig .tc := ⟨.hbm, 31, rfl⟩
abbrev main_v9 : Ref sig .tc := ⟨.hbm, 32, rfl⟩
abbrev main_v10 : Ref sig .tc := ⟨.hbm, 33, rfl⟩
abbrev main_v11 : Ref sig .tc := ⟨.hbm, 34, rfl⟩
abbrev main_v12 : Ref sig .tc := ⟨.hbm, 35, rfl⟩
abbrev main_cst_1 : Ref sig .tc := ⟨.hbm, 36, rfl⟩
abbrev main_v13 : Ref sig .tc := ⟨.hbm, 37, rfl⟩
abbrev main_v14 : Ref sig .tc := ⟨.hbm, 38, rfl⟩
abbrev main_cst_2 : Ref sig .tc := ⟨.hbm, 39, rfl⟩
abbrev main_v15 : Ref sig .tc := ⟨.hbm, 40, rfl⟩
abbrev main_v16 : Ref sig .tc := ⟨.hbm, 41, rfl⟩
abbrev main_v17 : Ref sig .tc := ⟨.hbm, 42, rfl⟩
abbrev main_v18 : Ref sig .tc := ⟨.hbm, 43, rfl⟩
abbrev main_v19 : Ref sig .tc := ⟨.hbm, 44, rfl⟩
abbrev main_v20 : Ref sig .tc := ⟨.hbm, 45, rfl⟩
abbrev main_v21 : Ref sig .tc := ⟨.hbm, 46, rfl⟩
abbrev main_cst_3 : Ref sig .tc := ⟨.hbm, 47, rfl⟩
abbrev main_v22 : Ref sig .tc := ⟨.hbm, 48, rfl⟩
abbrev main_v23 : Ref sig .tc := ⟨.hbm, 49, rfl⟩
abbrev main_cst_4 : Ref sig .tc := ⟨.hbm, 50, rfl⟩
abbrev main_v24 : Ref sig .tc := ⟨.hbm, 51, rfl⟩
abbrev main_v25 : Ref sig .tc := ⟨.hbm, 52, rfl⟩
abbrev main_v26 : Ref sig .tc := ⟨.hbm, 53, rfl⟩
abbrev main_v27 : Ref sig .tc := ⟨.hbm, 54, rfl⟩
abbrev main_v28 : Ref sig .tc := ⟨.hbm, 55, rfl⟩
abbrev main_v29 : Ref sig .tc := ⟨.hbm, 56, rfl⟩
abbrev main_v30 : Ref sig .tc := ⟨.hbm, 57, rfl⟩
abbrev main_cst_5 : Ref sig .tc := ⟨.hbm, 58, rfl⟩
abbrev main_v31 : Ref sig .tc := ⟨.hbm, 59, rfl⟩
abbrev main_v32 : Ref sig .tc := ⟨.hbm, 60, rfl⟩
abbrev main_cst_6 : Ref sig .tc := ⟨.hbm, 61, rfl⟩
abbrev main_v33 : Ref sig .tc := ⟨.hbm, 62, rfl⟩
abbrev main_v34 : Ref sig .tc := ⟨.hbm, 63, rfl⟩
abbrev main_v35 : Ref sig .tc := ⟨.hbm, 64, rfl⟩
abbrev main_v36 : Ref sig .tc := ⟨.hbm, 65, rfl⟩
abbrev main_v37 : Ref sig .tc := ⟨.hbm, 66, rfl⟩
abbrev main_v38 : Ref sig .tc := ⟨.hbm, 67, rfl⟩
abbrev main_v39 : Ref sig .tc := ⟨.hbm, 68, rfl⟩
abbrev main_v40 : Ref sig .tc := ⟨.hbm, 69, rfl⟩
abbrev main_v41 : Ref sig .tc := ⟨.hbm, 70, rfl⟩
abbrev main_v42 : Ref sig .tc := ⟨.hbm, 71, rfl⟩
abbrev main_v43 : Ref sig .tc := ⟨.hbm, 72, rfl⟩
abbrev main_v44 : Ref sig .tc := ⟨.hbm, 73, rfl⟩
abbrev main_v45 : Ref sig .tc := ⟨.hbm, 74, rfl⟩
abbrev main_v46 : Ref sig .tc := ⟨.hbm, 75, rfl⟩
abbrev main_v47 : Ref sig .tc := ⟨.hbm, 76, rfl⟩
abbrev main_v48 : Ref sig .tc := ⟨.hbm, 77, rfl⟩
abbrev main_v49 : Ref sig .tc := ⟨.hbm, 78, rfl⟩
abbrev main_v50 : Ref sig .tc := ⟨.hbm, 79, rfl⟩
abbrev main_cst_7 : Ref sig .tc := ⟨.hbm, 80, rfl⟩
abbrev main_v51 : Ref sig .tc := ⟨.hbm, 81, rfl⟩
abbrev main_v52 : Ref sig .tc := ⟨.hbm, 82, rfl⟩
abbrev main_cst_8 : Ref sig .tc := ⟨.hbm, 83, rfl⟩
abbrev main_v53 : Ref sig .tc := ⟨.hbm, 84, rfl⟩
abbrev main_v54 : Ref sig .tc := ⟨.hbm, 85, rfl⟩
abbrev main_v55 : Ref sig .tc := ⟨.hbm, 86, rfl⟩
abbrev main_v56 : Ref sig .tc := ⟨.hbm, 87, rfl⟩
abbrev main_v57 : Ref sig .tc := ⟨.hbm, 88, rfl⟩
abbrev main_cst_9 : Ref sig .tc := ⟨.hbm, 89, rfl⟩
abbrev main_v58 : Ref sig .tc := ⟨.hbm, 90, rfl⟩
abbrev main_v59 : Ref sig .tc := ⟨.hbm, 91, rfl⟩
abbrev main_cst_10 : Ref sig .tc := ⟨.hbm, 92, rfl⟩
abbrev main_v60 : Ref sig .tc := ⟨.hbm, 93, rfl⟩
abbrev main_v61 : Ref sig .tc := ⟨.hbm, 94, rfl⟩
abbrev main_v62 : Ref sig .tc := ⟨.hbm, 95, rfl⟩
abbrev main_v63 : Ref sig .tc := ⟨.hbm, 96, rfl⟩
abbrev main_v64 : Ref sig .tc := ⟨.hbm, 97, rfl⟩
abbrev main_v65 : Ref sig .tc := ⟨.hbm, 98, rfl⟩
abbrev main_v66 : Ref sig .tc := ⟨.hbm, 99, rfl⟩
abbrev main_cst_11 : Ref sig .tc := ⟨.hbm, 100, rfl⟩
abbrev main_v67 : Ref sig .tc := ⟨.hbm, 101, rfl⟩
abbrev main_v68 : Ref sig .tc := ⟨.hbm, 102, rfl⟩
abbrev main_cst_12 : Ref sig .tc := ⟨.hbm, 103, rfl⟩
abbrev main_v69 : Ref sig .tc := ⟨.hbm, 104, rfl⟩
abbrev main_v70 : Ref sig .tc := ⟨.hbm, 105, rfl⟩
abbrev main_v71 : Ref sig .tc := ⟨.hbm, 106, rfl⟩
abbrev main_v72 : Ref sig .tc := ⟨.hbm, 107, rfl⟩
abbrev main_v73 : Ref sig .tc := ⟨.hbm, 108, rfl⟩
abbrev main_v74 : Ref sig .tc := ⟨.hbm, 109, rfl⟩
abbrev main_v75 : Ref sig .tc := ⟨.hbm, 110, rfl⟩
abbrev main_v76 : Ref sig .tc := ⟨.hbm, 111, rfl⟩
abbrev main_v77 : Ref sig .tc := ⟨.hbm, 112, rfl⟩
abbrev main_v78 : Ref sig .tc := ⟨.hbm, 113, rfl⟩
abbrev main_v79 : Ref sig .tc := ⟨.hbm, 114, rfl⟩
abbrev main_v80 : Ref sig .tc := ⟨.hbm, 115, rfl⟩
abbrev main_v81 : Ref sig .tc := ⟨.hbm, 116, rfl⟩
abbrev main_call4_v0 : Ref sig .tc := ⟨.hbm, 117, rfl⟩
abbrev main_call4_cst : Ref sig .tc := ⟨.hbm, 118, rfl⟩
abbrev main_call4_v1 : Ref sig .tc := ⟨.hbm, 119, rfl⟩
abbrev main_call4_v2 : Ref sig .tc := ⟨.hbm, 120, rfl⟩
abbrev main_v82 : Ref sig .tc := ⟨.hbm, 121, rfl⟩
abbrev main_v83 : Ref sig .tc := ⟨.hbm, 122, rfl⟩
abbrev main_v84 : Ref sig .tc := ⟨.hbm, 123, rfl⟩
abbrev main_v85 : Ref sig .tc := ⟨.hbm, 124, rfl⟩
abbrev main_v86 : Ref sig .tc := ⟨.hbm, 125, rfl⟩
abbrev main_v87 : Ref sig .tc := ⟨.hbm, 126, rfl⟩
abbrev main_v88 : Ref sig .tc := ⟨.hbm, 127, rfl⟩

abbrev nD : Nat := 1
abbrev τ : Topo := Topo.v7x

variable {F : FTy → Type} [FloatOps F]

class Facts₀ : Prop where
  transposes_S256x29_S29x256_1_0 : S256x29.Transposes [1, 0] S29x256
  bcast_S256_S1x256_1 : S256.BroadcastsInDim S1x256 (![1] : Fin 1 → Fin S1x256.rank)
  bcast_S_S1x256 : S_.BroadcastsInDim S1x256 (![] : Fin 0 → Fin S1x256.rank)
  transposes_S256x256_S256x256_1_0 : S256x256.Transposes [1, 0] S256x256
  transposes_S128x256_S256x128_1_0 : S128x256.Transposes [1, 0] S256x128
  bcast_S128_S1x128_1 : S128.BroadcastsInDim S1x128 (![1] : Fin 1 → Fin S1x128.rank)
  bcast_S_S1x128 : S_.BroadcastsInDim S1x128 (![] : Fin 0 → Fin S1x128.rank)
  transposes_S128x128_S128x128_1_0 : S128x128.Transposes [1, 0] S128x128
  transposes_S512x128_S128x512_1_0 : S512x128.Transposes [1, 0] S128x512
  bcast_S512_S1x512_1 : S512.BroadcastsInDim S1x512 (![1] : Fin 1 → Fin S1x512.rank)
  slices_S1x512_S1x128_0_0 : S1x512.Slices ![0, 0] S1x128
  slices_S1x512_S1x128_0_128 : S1x512.Slices ![0, 128] S1x128
  slices_S1x512_S1x128_0_256 : S1x512.Slices ![0, 256] S1x128
  slices_S1x512_S1x128_0_384 : S1x512.Slices ![0, 384] S1x128
  transposes_S1x128_S128x1_1_0 : S1x128.Transposes [1, 0] S128x1
  bcast_S1_S1x1_1 : S1.BroadcastsInDim S1x1 (![1] : Fin 1 → Fin S1x1.rank)
  shapeCasts_S1x1_S_ : S1x1.ShapeCasts S_
  transposes_S3x128_S128x3_1_0 : S3x128.Transposes [1, 0] S128x3
  bcast_S3_S1x3_1 : S3.BroadcastsInDim S1x3 (![1] : Fin 1 → Fin S1x3.rank)
  bcast_S_S1x3 : S_.BroadcastsInDim S1x3 (![] : Fin 0 → Fin S1x3.rank)
  shapeCasts_S1x3_S3 : S1x3.ShapeCasts S3
  dot_S1x29_S29x256_S1x256_1_0_0_1_n_n_wf : DotDims.WF S1x29 S29x256 S1x256 [1] [0] [0] [1] [] []
  dot_S1x256_S256x256_S1x256_1_0_0_1_n_n_wf : DotDims.WF S1x256 S256x256 S1x256 [1] [0] [0] [1] [] []
  dot_S1x256_S256x128_S1x128_1_0_0_1_n_n_wf : DotDims.WF S1x256 S256x128 S1x128 [1] [0] [0] [1] [] []
  dot_S1x128_S128x128_S1x128_1_0_0_1_n_n_wf : DotDims.WF S1x128 S128x128 S1x128 [1] [0] [0] [1] [] []
  dot_S1x128_S128x512_S1x512_1_0_0_1_n_n_wf : DotDims.WF S1x128 S128x512 S1x512 [1] [0] [0] [1] [] []
  dot_S1x128_S128x1_S1x1_1_0_0_1_n_n_wf : DotDims.WF S1x128 S128x1 S1x1 [1] [0] [0] [1] [] []
  dot_S1x128_S128x3_S1x3_1_0_0_1_n_n_wf : DotDims.WF S1x128 S128x3 S1x3 [1] [0] [0] [1] [] []

variable [Facts₀]

def dot_S1x29_S29x256_S1x256_1_0_0_1_n_n : DotDims S1x29 S29x256 S1x256 where
  lhsContracting := [1]
  rhsContracting := [0]
  lhsNonContracting := [0]
  rhsNonContracting := [1]
  lhsBatch := []
  rhsBatch := []
  wf := dot_S1x29_S29x256_S1x256_1_0_0_1_n_n_wf
def dot_S1x256_S256x256_S1x256_1_0_0_1_n_n : DotDims S1x256 S256x256 S1x256 where
  lhsContracting := [1]
  rhsContracting := [0]
  lhsNonContracting := [0]
  rhsNonContracting := [1]
  lhsBatch := []
  rhsBatch := []
  wf := dot_S1x256_S256x256_S1x256_1_0_0_1_n_n_wf
def dot_S1x256_S256x128_S1x128_1_0_0_1_n_n : DotDims S1x256 S256x128 S1x128 where
  lhsContracting := [1]
  rhsContracting := [0]
  lhsNonContracting := [0]
  rhsNonContracting := [1]
  lhsBatch := []
  rhsBatch := []
  wf := dot_S1x256_S256x128_S1x128_1_0_0_1_n_n_wf
def dot_S1x128_S128x128_S1x128_1_0_0_1_n_n : DotDims S1x128 S128x128 S1x128 where
  lhsContracting := [1]
  rhsContracting := [0]
  lhsNonContracting := [0]
  rhsNonContracting := [1]
  lhsBatch := []
  rhsBatch := []
  wf := dot_S1x128_S128x128_S1x128_1_0_0_1_n_n_wf
def dot_S1x128_S128x512_S1x512_1_0_0_1_n_n : DotDims S1x128 S128x512 S1x512 where
  lhsContracting := [1]
  rhsContracting := [0]
  lhsNonContracting := [0]
  rhsNonContracting := [1]
  lhsBatch := []
  rhsBatch := []
  wf := dot_S1x128_S128x512_S1x512_1_0_0_1_n_n_wf
def dot_S1x128_S128x1_S1x1_1_0_0_1_n_n : DotDims S1x128 S128x1 S1x1 where
  lhsContracting := [1]
  rhsContracting := [0]
  lhsNonContracting := [0]
  rhsNonContracting := [1]
  lhsBatch := []
  rhsBatch := []
  wf := dot_S1x128_S128x1_S1x1_1_0_0_1_n_n_wf
def dot_S1x128_S128x3_S1x3_1_0_0_1_n_n : DotDims S1x128 S128x3 S1x3 where
  lhsContracting := [1]
  rhsContracting := [0]
  lhsNonContracting := [0]
  rhsNonContracting := [1]
  lhsBatch := []
  rhsBatch := []
  wf := dot_S1x128_S128x3_S1x3_1_0_0_1_n_n_wf

class Facts : Prop extends Facts₀ where

variable [Facts]
-- ==== Proof.KernelArrays.lean ====
/-
  What the kernel leaves in its three result arrays, as functions of the argument arrays.

  The call has one grid point, and every window's block is its whole array: the index maps are zero, and a
  block's extents are the array's. So the block the body reads from window w is the argument array itself,
  the one store into each output buffer covers it, and what is written back to each output array is the
  body's value of the WHOLE argument arrays:
    value   = head (hidden (x, hx, cx, w1 .. w_hh), w_critic, b_critic)           a [1,1] array
    actor   = softsign-head (hidden (..), w_actor, b_actor)                       a [1,3] array
    actor2  = head (hidden (..), w_actor2, b_actor2)                              a [1,3] array
  The three host lines after the call reshape these to a scalar and two vectors of three.
-/
import proofs.«159873_j38903813767521_1_alg».proof.Proof.Gen.KernelIdeal.Frame
import Idealize.ShloMosaic.Lib.Pipeline.Value
import Idealize.ShloMosaic.Lib.StableHlo.Run

set_option maxRecDepth 16384

noncomputable section

namespace Cert.KernelIdeal.Arrays

open Cert.KernelIdeal Cert.KernelIdeal.Gen Idealize.ShloMosaic Idealize.ShloMosaic.TcCoe Idealize.SL.Sem
open Idealize.ShloMosaic.Pipeline (Dat)

variable {F : FTy → Type} [FloatOps F]
variable (m : (ℓ : Loc nD τ sig) → Buf (Elt F) ℓ) (ρ : Dev nD → PrngReg)

theorem zero2 : (![0, 0] : Fin 2 → Nat) = fun _ => 0 := funext fun a => by fin_cases a <;> rfl
theorem zero1 : (![0] : Fin 1 → Nat) = fun _ => 0 := funext fun a => by fin_cases a; rfl

/-! ## Every window's block index is zero, at every point of the grid -/

theorem origin_0 : ∀ t : Fin cfg0.N, win0_0.index t = ![0, 0] := (by decide +kernel : ∀ t : Fin grid0.N, win0_0.index t = ![0, 0])
theorem origin_1 : ∀ t : Fin cfg0.N, win0_1.index t = ![0, 0] := (by decide +kernel : ∀ t : Fin grid0.N, win0_1.index t = ![0, 0])
theorem origin_2 : ∀ t : Fin cfg0.N, win0_2.index t = ![0, 0] := (by decide +kernel : ∀ t : Fin grid0.N, win0_2.index t = ![0, 0])
theorem origin_3 : ∀ t : Fin cfg0.N, win0_3.index t = ![0, 0] := (by decide +kernel : ∀ t : Fin grid0.N, win0_3.index t = ![0, 0])
theorem origin_4 : ∀ t : Fin cfg0.N, win0_4.index t = ![0] := (by decide +kernel : ∀ t : Fin grid0.N, win0_4.index t = ![0])
theorem origin_5 : ∀ t : Fin cfg0.N, win0_5.index t = ![0, 0] := (by decide +kernel : ∀ t : Fin grid0.N, win0_5.index t = ![0, 0])
theorem origin_6 : ∀ t : Fin cfg0.N, win0_6.index t = ![0] := (by decide +kernel : ∀ t : Fin grid0.N, win0_6.index t = ![0])
theorem origin_7 : ∀ t : Fin cfg0.N, win0_7.index t = ![0, 0] := (by decide +kernel : ∀ t : Fin grid0.N, win0_7.index t = ![0, 0])
theorem origin_8 : ∀ t : Fin cfg0.N, win0_8.index t = ![0] := (by decide +kernel : ∀ t : Fin grid0.N, win0_8.index t = ![0])
theorem origin_9 : ∀ t : Fin cfg0.N, win0_9.index t = ![0, 0] := (by decide +kernel : ∀ t : Fin grid0.N, win0_9.index t = ![0, 0])
theorem origin_10 : ∀ t : Fin cfg0.N, win0_10.index t = ![0] := (by decide +kernel : ∀ t : Fin grid0.N, win0_10.index t = ![0])
theorem origin_11 : ∀ t : Fin cfg0.N, win0_11.index t = ![0, 0] := (by decide +kernel : ∀ t : Fin grid0.N, win0_11.index t = ![0, 0])
theorem origin_12 : ∀ t : Fin cfg0.N, win0_12.index t = ![0] := (by decide +kernel : ∀ t : Fin grid0.N, win0_12.index t = ![0])
theorem origin_13 : ∀ t : Fin cfg0.N, win0_13.index t = ![0, 0] := (by decide +kernel : ∀ t : Fin grid0.N, win0_13.index t = ![0, 0])
theorem origin_14 : ∀ t : Fin cfg0.N, win0_14.index t = ![0] := (by decide +kernel : ∀ t : Fin grid0.N, win0_14.index t = ![0])
theorem origin_15 : ∀ t : Fin cfg0.N, win0_15.index t = ![0, 0] := (by decide +kernel : ∀ t : Fin grid0.N, win0_15.index t = ![0, 0])
theorem origin_16 : ∀ t : Fin cfg0.N, win0_16.index t = ![0] := (by decide +kernel : ∀ t : Fin grid0.N, win0_16.index t = ![0])
theorem origin_17 : ∀ t : Fin cfg0.N, win0_17.index t = ![0, 0] := (by decide +kernel : ∀ t : Fin grid0.N, win0_17.index t = ![0, 0])
theorem origin_18 : ∀ t : Fin cfg0.N, win0_18.index t = ![0] := (by decide +kernel : ∀ t : Fin grid0.N, win0_18.index t = ![0])
theorem origin_19 : ∀ t : Fin cfg0.N, win0_19.index t = ![0, 0] := (by decide +kernel : ∀ t : Fin grid0.N, win0_19.index t = ![0, 0])
theorem origin_20 : ∀ t : Fin cfg0.N, win0_20.index t = ![0] := (by decide +kernel : ∀ t : Fin grid0.N, win0_20.index t = ![0])
theorem origin_21 : ∀ t : Fin cfg0.N, win0_21.index t = ![0, 0] := (by decide +kernel : ∀ t : Fin grid0.N, win0_21.index t = ![0, 0])
theorem origin_22 : ∀ t : Fin cfg0.N, win0_22.index t = ![0, 0] := (by decide +kernel : ∀ t : Fin grid0.N, win0_22.index t = ![0, 0])
theorem origin_23 : ∀ t : Fin cfg0.N, win0_23.index t = ![0, 0] := (by decide +kernel : ∀ t : Fin grid0.N, win0_23.index t = ![0, 0])

/-! ## Each input window's block is its whole array

A block's coordinate is block index times block extent plus the coordinate inside the block; the index is zero. -/

theorem block_0 (c : Dev nD) (t : Fin cfg0.N) : iblk m c 0 t = V m c main_arg0 := by
  have e0 : win0_0.index t (0 : Fin 2) = 0 := congrFun (origin_0 t) 0
  have e1 : win0_0.index t (1 : Fin 2) = 0 := congrFun (origin_0 t) 1
  funext y
  show V m c main_arg0 (((cfg0.win 0).blk t).view.emb y) = V m c main_arg0 y
  refine congrArg (V m c main_arg0) (funext fun a => Fin.ext ?_)
  match a with
  | ⟨0, _⟩ => show win0_0.index t (0 : Fin 2) * 1 + 1 * (y 0).val = (y 0).val; omega
  | ⟨1, _⟩ => show win0_0.index t (1 : Fin 2) * 29 + 1 * (y 1).val = (y 1).val; omega

theorem block_1 (c : Dev nD) (t : Fin cfg0.N) : iblk m c 1 t = V m c main_arg1 := by
  have e0 : win0_1.index t (0 : Fin 2) = 0 := congrFun (origin_1 t) 0
  have e1 : win0_1.index t (1 : Fin 2) = 0 := congrFun (origin_1 t) 1
  funext y
  show V m c main_arg1 (((cfg0.win 1).blk t).view.emb y) = V m c main_arg1 y
  refine congrArg (V m c main_arg1) (funext fun a => Fin.ext ?_)
  match a with
  | ⟨0, _⟩ => show win0_1.index t (0 : Fin 2) * 1 + 1 * (y 0).val = (y 0).val; omega
  | ⟨1, _⟩ => show win0_1.index t (1 : Fin 2) * 128 + 1 * (y 1).val = (y 1).val; omega

theorem block_2 (c : Dev nD) (t : Fin cfg0.N) : iblk m c 2 t = V m c main_arg2 := by
  have e0 : win0_2.index t (0 : Fin 2) = 0 := congrFun (origin_2 t) 0
  have e1 : win0_2.index t (1 : Fin 2) = 0 := congrFun (origin_2 t) 1
  funext y
  show V m c main_arg2 (((cfg0.win 2).blk t).view.emb y) = V m c main_arg2 y
  refine congrArg (V m c main_arg2) (funext fun a => Fin.ext ?_)
  match a with
  | ⟨0, _⟩ => show win0_2.index t (0 : Fin 2) * 1 + 1 * (y 0).val = (y 0).val; omega
  | ⟨1, _⟩ => show win0_2.index t (1 : Fin 2) * 128 + 1 * (y 1).val = (y 1).val; omega

theorem block_3 (c : Dev nD) (t : Fin cfg0.N) : iblk m c 3 t = V m c main_arg3 := by
  have e0 : win0_3.index t (0 : Fin 2) = 0 := congrFun (origin_3 t) 0
  have e1 : win0_3.index t (1 : Fin 2) = 0 := congrFun (origin_3 t) 1
  funext y
  show V m c main_arg3 (((cfg0.win 3).blk t).view.emb y) = V m c main_arg3 y
  refine congrArg (V m c main_arg3) (funext fun a => Fin.ext ?_)
  match a with
  | ⟨0, _⟩ => show win0_3.index t (0 : Fin 2) * 256 + 1 * (y 0).val = (y 0).val; omega
  | ⟨1, _⟩ => show win0_3.index t (1 : Fin 2) * 29 + 1 * (y 1).val = (y 1).val; omega

theorem block_4 (c : Dev nD) (t : Fin cfg0.N) : iblk m c 4 t = V m c main_arg4 := by
  have e0 : win0_4.index t (0 : Fin 1) = 0 := congrFun (origin_4 t) 0
  funext y
  show V m c main_arg4 (((cfg0.win 4).blk t).view.emb y) = V m c main_arg4 y
  refine congrArg (V m c main_arg4) (funext fun a => Fin.ext ?_)
  match a with
  | ⟨0, _⟩ => show win0_4.index t (0 : Fin 1) * 256 + 1 * (y 0).val = (y 0).val; omega

theorem block_5 (c : Dev nD) (t : Fin cfg0.N) : iblk m c 5 t = V m c main_arg5 := by
  have e0 : win0_5.index t (0 : Fin 2) = 0 := congrFun (origin_5 t) 0
  have e1 : win0_5.index t (1 : Fin 2) = 0 := congrFun (origin_5 t) 1
  funext y
  show V m c main_arg5 (((cfg0.win 5).blk t).view.emb y) = V m c main_arg5 y
  refine congrArg (V m c main_arg5) (funext fun a => Fin.ext ?_)
  match a with
  | ⟨0, _⟩ => show win0_5.index t (0 : Fin 2) * 256 + 1 * (y 0).val = (y 0).val; omega
  | ⟨1, _⟩ => show win0_5.index t (1 : Fin 2) * 256 + 1 * (y 1).val = (y 1).val; omega

theorem block_6 (c : Dev nD) (t : Fin cfg0.N) : iblk m c 6 t = V m c main_arg6 := by
  have e0 : win0_6.index t (0 : Fin 1) = 0 := congrFun (origin_6 t) 0
  funext y
  show V m c main_arg6 (((cfg0.win 6).blk t).view.emb y) = V m c main_arg6 y
  refine congrArg (V m c main_arg6) (funext fun a => Fin.ext ?_)
  match a with
  | ⟨0, _⟩ => show win0_6.index t (0 : Fin 1) * 256 + 1 * (y 0).val = (y 0).val; omega

theorem block_7 (c : Dev nD) (t : Fin cfg0.N) : iblk m c 7 t = V m c main_arg7 := by
  have e0 : win0_7.index t (0 : Fin 2) = 0 := congrFun (origin_7 t) 0
  have e1 : win0_7.index t (1 : Fin 2) = 0 := congrFun (origin_7 t) 1
  funext y
  show V m c main_arg7 (((cfg0.win 7).blk t).view.emb y) = V m c main_arg7 y
  refine congrArg (V m c main_arg7) (funext fun a => Fin.ext ?_)
  match a with
  | ⟨0, _⟩ => show win0_7.index t (0 : Fin 2) * 128 + 1 * (y 0).val = (y 0).val; omega
  | ⟨1, _⟩ => show win0_7.index t (1 : Fin 2) * 256 + 1 * (y 1).val = (y 1).val; omega

theorem block_8 (c : Dev nD) (t : Fin cfg0.N) : iblk m c 8 t = V m c main_arg8 := by
  have e0 : win0_8.index t (0 : Fin 1) = 0 := congrFun (origin_8 t) 0
  funext y
  show V m c main_arg8 (((cfg0.win 8).blk t).view.emb y) = V m c main_arg8 y
  refine congrArg (V m c main_arg8) (funext fun a => Fin.ext ?_)
  match a with
  | ⟨0, _⟩ => show win0_8.index t (0 : Fin 1) * 128 + 1 * (y 0).val = (y 0).val; omega

theorem block_9 (c : Dev nD) (t : Fin cfg0.N) : iblk m c 9 t = V m c main_arg9 := by
  have e0 : win0_9.index t (0 : Fin 2) = 0 := congrFun (origin_9 t) 0
  have e1 : win0_9.index t (1 : Fin 2) = 0 := congrFun (origin_9 t) 1
  funext y
  show V m c main_arg9 (((cfg0.win 9).blk t).view.emb y) = V m c main_arg9 y
  refine congrArg (V m c main_arg9) (funext fun a => Fin.ext ?_)
  match a with
  | ⟨0, _⟩ => show win0_9.index t (0 : Fin 2) * 128 + 1 * (y 0).val = (y 0).val; omega
  | ⟨1, _⟩ => show win0_9.index t (1 : Fin 2) * 128 + 1 * (y 1).val = (y 1).val; omega

theorem block_10 (c : Dev nD) (t : Fin cfg0.N) : iblk m c 10 t = V m c main_arg10 := by
  have e0 : win0_10.index t (0 : Fin 1) = 0 := congrFun (origin_10 t) 0
  funext y
  show V m c main_arg10 (((cfg0.win 10).blk t).view.emb y) = V m c main_arg10 y
  refine congrArg (V m c main_arg10) (funext fun a => Fin.ext ?_)
  match a with
  | ⟨0, _⟩ => show win0_10.index t (0 : Fin 1) * 128 + 1 * (y 0).val = (y 0).val; omega

theorem block_11 (c : Dev nD) (t : Fin cfg0.N) : iblk m c 11 t = V m c main_arg11 := by
  have e0 : win0_11.index t (0 : Fin 2) = 0 := congrFun (origin_11 t) 0
  have e1 : win0_11.index t (1 : Fin 2) = 0 := congrFun (origin_11 t) 1
  funext y
  show V m c main_arg11 (((cfg0.win 11).blk t).view.emb y) = V m c main_arg11 y
  refine congrArg (V m c main_arg11) (funext fun a => Fin.ext ?_)
  match a with
  | ⟨0, _⟩ => show win0_11.index t (0 : Fin 2) * 512 + 1 * (y 0).val = (y 0).val; omega
  | ⟨1, _⟩ => show win0_11.index t (1 : Fin 2) * 128 + 1 * (y 1).val = (y 1).val; omega

theorem block_12 (c : Dev nD) (t : Fin cfg0.N) : iblk m c 12 t = V m c main_arg12 := by
  have e0 : win0_12.index t (0 : Fin 1) = 0 := congrFun (origin_12 t) 0
  funext y
  show V m c main_arg12 (((cfg0.win 12).blk t).view.emb y) = V m c main_arg12 y
  refine congrArg (V m c main_arg12) (funext fun a => Fin.ext ?_)
  match a with
  | ⟨0, _⟩ => show win0_12.index t (0 : Fin 1) * 512 + 1 * (y 0).val = (y 0).val; omega

theorem block_13 (c : Dev nD) (t : Fin cfg0.N) : iblk m c 13 t = V m c main_arg13 := by
  have e0 : win0_13.index t (0 : Fin 2) = 0 := congrFun (origin_13 t) 0
  have e1 : win0_13.index t (1 : Fin 2) = 0 := congrFun (origin_13 t) 1
  funext y
  show V m c main_arg13 (((cfg0.win 13).blk t).view.emb y) = V m c main_arg13 y
  refine congrArg (V m c main_arg13) (funext fun a => Fin.ext ?_)
  match a with
  | ⟨0, _⟩ => show win0_13.index t (0 : Fin 2) * 512 + 1 * (y 0).val = (y 0).val; omega
  | ⟨1, _⟩ => show win0_13.index t (1 : Fin 2) * 128 + 1 * (y 1).val = (y 1).val; omega

theorem block_14 (c : Dev nD) (t : Fin cfg0.N) : iblk m c 14 t = V m c main_arg14 := by
  have e0 : win0_14.index t (0 : Fin 1) = 0 := congrFun (origin_14 t) 0
  funext y
  show V m c main_arg14 (((cfg0.win 14).blk t).view.emb y) = V m c main_arg14 y
  refine congrArg (V m c main_arg14) (funext fun a => Fin.ext ?_)
  match a with
  | ⟨0, _⟩ => show win0_14.index t (0 : Fin 1) * 512 + 1 * (y 0).val = (y 0).val; omega

theorem block_15 (c : Dev nD) (t : Fin cfg0.N) : iblk m c 15 t = V m c main_arg15 := by
  have e0 : win0_15.index t (0 : Fin 2) = 0 := congrFun (origin_15 t) 0
  have e1 : win0_15.index t (1 : Fin 2) = 0 := congrFun (origin_15 t) 1
  funext y
  show V m c main_arg15 (((cfg0.win 15).blk t).view.emb y) = V m c main_arg15 y
  refine congrArg (V m c main_arg15) (funext fun a => Fin.ext ?_)
  match a with
  | ⟨0, _⟩ => show win0_15.index t (0 : Fin 2) * 1 + 1 * (y 0).val = (y 0).val; omega
  | ⟨1, _⟩ => show win0_15.index t (1 : Fin 2) * 128 + 1 * (y 1).val = (y 1).val; omega

theorem block_16 (c : Dev nD) (t : Fin cfg0.N) : iblk m c 16 t = V m c main_arg16 := by
  have e0 : win0_16.index t (0 : Fin 1) = 0 := congrFun (origin_16 t) 0
  funext y
  show V m c main_arg16 (((cfg0.win 16).blk t).view.emb y) = V m c main_arg16 y
  refine congrArg (V m c main_arg16) (funext fun a => Fin.ext ?_)
  match a with
  | ⟨0, _⟩ => show win0_16.index t (0 : Fin 1) * 1 + 1 * (y 0).val = (y 0).val; omega

theorem block_17 (c : Dev nD) (t : Fin cfg0.N) : iblk m c 17 t = V m c main_arg17 := by
  have e0 : win0_17.index t (0 : Fin 2) = 0 := congrFun (origin_17 t) 0
  have e1 : win0_17.index t (1 : Fin 2) = 0 := congrFun (origin_17 t) 1
  funext y
  show V m c main_arg17 (((cfg0.win 17).blk t).view.emb y) = V m c main_arg17 y
  refine congrArg (V m c main_arg17) (funext fun a => Fin.ext ?_)
  match a with
  | ⟨0, _⟩ => show win0_17.index t (0 : Fin 2) * 3 + 1 * (y 0).val = (y 0).val; omega
  | ⟨1, _⟩ => show win0_17.index t (1 : Fin 2) * 128 + 1 * (y 1).val = (y 1).val; omega

theorem block_18 (c : Dev nD) (t : Fin cfg0.N) : iblk m c 18 t = V m c main_arg18 := by
  have e0 : win0_18.index t (0 : Fin 1) = 0 := congrFun (origin_18 t) 0
  funext y
  show V m c main_arg18 (((cfg0.win 18).blk t).view.emb y) = V m c main_arg18 y
  refine congrArg (V m c main_arg18) (funext fun a => Fin.ext ?_)
  match a with
  | ⟨0, _⟩ => show win0_18.index t (0 : Fin 1) * 3 + 1 * (y 0).val = (y 0).val; omega

theorem block_19 (c : Dev nD) (t : Fin cfg0.N) : iblk m c 19 t = V m c main_arg19 := by
  have e0 : win0_19.index t (0 : Fin 2) = 0 := congrFun (origin_19 t) 0
  have e1 : win0_19.index t (1 : Fin 2) = 0 := congrFun (origin_19 t) 1
  funext y
  show V m c main_arg19 (((cfg0.win 19).blk t).view.emb y) = V m c main_arg19 y
  refine congrArg (V m c main_arg19) (funext fun a => Fin.ext ?_)
  match a with
  | ⟨0, _⟩ => show win0_19.index t (0 : Fin 2) * 3 + 1 * (y 0).val = (y 0).val; omega
  | ⟨1, _⟩ => show win0_19.index t (1 : Fin 2) * 128 + 1 * (y 1).val = (y 1).val; omega

theorem block_20 (c : Dev nD) (t : Fin cfg0.N) : iblk m c 20 t = V m c main_arg20 := by
  have e0 : win0_20.index t (0 : Fin 1) = 0 := congrFun (origin_20 t) 0
  funext y
  show V m c main_arg20 (((cfg0.win 20).blk t).view.emb y) = V m c main_arg20 y
  refine congrArg (V m c main_arg20) (funext fun a => Fin.ext ?_)
  match a with
  | ⟨0, _⟩ => show win0_20.index t (0 : Fin 1) * 3 + 1 * (y 0).val = (y 0).val; omega

/-! ## The body's stores, over whole blocks

One store covers each output buffer, and every load reads its whole block: the buffer after the body is the
payload of the blocks. -/

theorem out21_eq (x0 : Vec F S1x29 .f32) (x1 : Vec F S1x128 .f32) (x2 : Vec F S1x128 .f32) (x3 : Vec F S256x29 .f32) (x4 : Vec F S256 .f32) (x5 : Vec F S256x256 .f32) (x6 : Vec F S256 .f32) (x7 : Vec F S128x256 .f32) (x8 : Vec F S128 .f32) (x9 : Vec F S128x128 .f32) (x10 : Vec F S128 .f32) (x11 : Vec F S512x128 .f32) (x12 : Vec F S512 .f32) (x13 : Vec F S512x128 .f32) (x14 : Vec F S512 .f32) (x15 : Vec F S1x128 .f32) (x16 : Vec F S1 .f32) (x17 : Vec F S3x128 .f32) (x18 : Vec F S3 .f32) (x19 : Vec F S3x128 .f32) (x20 : Vec F S3 .f32) :
    out0_21 x0 x1 x2 x3 x4 x5 x6 x7 x8 x9 x10 x11 x12 x13 x14 x15 x16 x17 x18 x19 x20
      = k0_pay5 x1 x2 (k0_pay3 x0 x3 x4 x5 x6 x7 x8) x9 x10 x11 x12 x13 x14 x15 x16 := by
  unfold out0_21
  rw [View.canon_unit_zero zero2]
  simp only [View.ld_unit_zero (S := S1x29) zero2, View.ld_unit_zero (S := S1x128) zero2, View.ld_unit_zero (S := S256x29) zero2,
    View.ld_unit_zero (S := S256) zero1, View.ld_unit_zero (S := S256x256) zero2, View.ld_unit_zero (S := S128x256) zero2,
    View.ld_unit_zero (S := S128) zero1, View.ld_unit_zero (S := S128x128) zero2, View.ld_unit_zero (S := S512x128) zero2,
    View.ld_unit_zero (S := S512) zero1, View.ld_unit_zero (S := S1) zero1]

theorem out22_eq (x0 : Vec F S1x29 .f32) (x1 : Vec F S1x128 .f32) (x2 : Vec F S1x128 .f32) (x3 : Vec F S256x29 .f32) (x4 : Vec F S256 .f32) (x5 : Vec F S256x256 .f32) (x6 : Vec F S256 .f32) (x7 : Vec F S128x256 .f32) (x8 : Vec F S128 .f32) (x9 : Vec F S128x128 .f32) (x10 : Vec F S128 .f32) (x11 : Vec F S512x128 .f32) (x12 : Vec F S512 .f32) (x13 : Vec F S512x128 .f32) (x14 : Vec F S512 .f32) (x15 : Vec F S1x128 .f32) (x16 : Vec F S1 .f32) (x17 : Vec F S3x128 .f32) (x18 : Vec F S3 .f32) (x19 : Vec F S3x128 .f32) (x20 : Vec F S3 .f32) :
    out0_22 x0 x1 x2 x3 x4 x5 x6 x7 x8 x9 x10 x11 x12 x13 x14 x15 x16 x17 x18 x19 x20
      = k0_pay1 (k0_pay4 x1 x2 (k0_pay3 x0 x3 x4 x5 x6 x7 x8) x9 x10 x11 x12 x13 x14) x17 x18 := by
  unfold out0_22
  rw [View.canon_unit_zero zero2]
  simp only [View.ld_unit_zero (S := S1x29) zero2, View.ld_unit_zero (S := S1x128) zero2, View.ld_unit_zero (S := S256x29) zero2,
    View.ld_unit_zero (S := S256) zero1, View.ld_unit_zero (S := S256x256) zero2, View.ld_unit_zero (S := S128x256) zero2,
    View.ld_unit_zero (S := S128) zero1, View.ld_unit_zero (S := S128x128) zero2, View.ld_unit_zero (S := S512x128) zero2,
    View.ld_unit_zero (S := S512) zero1, View.ld_unit_zero (S := S3x128) zero2, View.ld_unit_zero (S := S3) zero1]

theorem out23_eq (x0 : Vec F S1x29 .f32) (x1 : Vec F S1x128 .f32) (x2 : Vec F S1x128 .f32) (x3 : Vec F S256x29 .f32) (x4 : Vec F S256 .f32) (x5 : Vec F S256x256 .f32) (x6 : Vec F S256 .f32) (x7 : Vec F S128x256 .f32) (x8 : Vec F S128 .f32) (x9 : Vec F S128x128 .f32) (x10 : Vec F S128 .f32) (x11 : Vec F S512x128 .f32) (x12 : Vec F S512 .f32) (x13 : Vec F S512x128 .f32) (x14 : Vec F S512 .f32) (x15 : Vec F S1x128 .f32) (x16 : Vec F S1 .f32) (x17 : Vec F S3x128 .f32) (x18 : Vec F S3 .f32) (x19 : Vec F S3x128 .f32) (x20 : Vec F S3 .f32) :
    out0_23 x0 x1 x2 x3 x4 x5 x6 x7 x8 x9 x10 x11 x12 x13 x14 x15 x16 x17 x18 x19 x20
      = k0_pay2 (k0_pay4 x1 x2 (k0_pay3 x0 x3 x4 x5 x6 x7 x8) x9 x10 x11 x12 x13 x14) x19 x20 := by
  unfold out0_23
  rw [View.canon_unit_zero zero2]
  simp only [View.ld_unit_zero (S := S1x29) zero2, View.ld_unit_zero (S := S1x128) zero2, View.ld_unit_zero (S := S256x29) zero2,
    View.ld_unit_zero (S := S256) zero1, View.ld_unit_zero (S := S256x256) zero2, View.ld_unit_zero (S := S128x256) zero2,
    View.ld_unit_zero (S := S128) zero1, View.ld_unit_zero (S := S128x128) zero2, View.ld_unit_zero (S := S512x128) zero2,
    View.ld_unit_zero (S := S512) zero1, View.ld_unit_zero (S := S3x128) zero2, View.ld_unit_zero (S := S3) zero1]

/-! ## The three results as functions of the argument arrays -/

/-- The new hidden state of the whole argument arrays. -/
def hidden (c : Dev nD) : FVec F S1x128 .f32 :=
  k0_pay4 (V m c main_arg1) (V m c main_arg2)
    (k0_pay3 (V m c main_arg0) (V m c main_arg3) (V m c main_arg4) (V m c main_arg5) (V m c main_arg6) (V m c main_arg7) (V m c main_arg8))
    (V m c main_arg9) (V m c main_arg10) (V m c main_arg11) (V m c main_arg12) (V m c main_arg13) (V m c main_arg14)

/-- The critic's value, a [1,1] array. -/
def value (c : Dev nD) : FVec F S1x1 .f32 :=
  k0_pay5 (V m c main_arg1) (V m c main_arg2)
    (k0_pay3 (V m c main_arg0) (V m c main_arg3) (V m c main_arg4) (V m c main_arg5) (V m c main_arg6) (V m c main_arg7) (V m c main_arg8))
    (V m c main_arg9) (V m c main_arg10) (V m c main_arg11) (V m c main_arg12) (V m c main_arg13) (V m c main_arg14)
    (V m c main_arg15) (V m c main_arg16)

/-- The first actor's output, a [1,3] array. -/
def actor (c : Dev nD) : FVec F S1x3 .f32 := k0_pay1 (hidden m c) (V m c main_arg17) (V m c main_arg18)

/-- The second actor's output, a [1,3] array. -/
def actor2 (c : Dev nD) : FVec F S1x3 .f32 := k0_pay2 (hidden m c) (V m c main_arg19) (V m c main_arg20)

/-! ## What the one point writes back -/

theorem flushed_value (c : Dev nD) (t : Fin cfg0.N) :
    (dats m 0 c).flushed 21 t = ((cfg0.win 21).blk t).view.read (Elt F) (value m c) := by
  have e0 : win0_21.index t (0 : Fin 2) = 0 := congrFun (origin_21 t) 0
  have e1 : win0_21.index t (1 : Fin 2) = 0 := congrFun (origin_21 t) 1
  show (cfg0.win 21).cut (grid0.coords t) ((dats m 0 c).after 21 t) = _
  rw [after0_21, out21_eq, block_0, block_1, block_2, block_3, block_4, block_5, block_6, block_7, block_8, block_9, block_10,
    block_11, block_12, block_13, block_14, block_15, block_16]
  funext j
  show value m c j = value m c (((cfg0.win 21).blk t).view.emb j)
  refine congrArg (value m c) (funext fun a => Fin.ext ?_)
  match a with
  | ⟨0, _⟩ => show (j 0).val = win0_21.index t (0 : Fin 2) * 1 + 1 * (j 0).val; omega
  | ⟨1, _⟩ => show (j 1).val = win0_21.index t (1 : Fin 2) * 1 + 1 * (j 1).val; omega

theorem flushed_actor (c : Dev nD) (t : Fin cfg0.N) :
    (dats m 0 c).flushed 22 t = ((cfg0.win 22).blk t).view.read (Elt F) (actor m c) := by
  have e0 : win0_22.index t (0 : Fin 2) = 0 := congrFun (origin_22 t) 0
  have e1 : win0_22.index t (1 : Fin 2) = 0 := congrFun (origin_22 t) 1
  show (cfg0.win 22).cut (grid0.coords t) ((dats m 0 c).after 22 t) = _
  rw [after0_22, out22_eq, block_0, block_1, block_2, block_3, block_4, block_5, block_6, block_7, block_8, block_9, block_10,
    block_11, block_12, block_13, block_14, block_17, block_18]
  funext j
  show actor m c j = actor m c (((cfg0.win 22).blk t).view.emb j)
  refine congrArg (actor m c) (funext fun a => Fin.ext ?_)
  match a with
  | ⟨0, _⟩ => show (j 0).val = win0_22.index t (0 : Fin 2) * 1 + 1 * (j 0).val; omega
  | ⟨1, _⟩ => show (j 1).val = win0_22.index t (1 : Fin 2) * 3 + 1 * (j 1).val; omega

theorem flushed_actor2 (c : Dev nD) (t : Fin cfg0.N) :
    (dats m 0 c).flushed 23 t = ((cfg0.win 23).blk t).view.read (Elt F) (actor2 m c) := by
  have e0 : win0_23.index t (0 : Fin 2) = 0 := congrFun (origin_23 t) 0
  have e1 : win0_23.index t (1 : Fin 2) = 0 := congrFun (origin_23 t) 1
  show (cfg0.win 23).cut (grid0.coords t) ((dats m 0 c).after 23 t) = _
  rw [after0_23, out23_eq, block_0, block_1, block_2, block_3, block_4, block_5, block_6, block_7, block_8, block_9, block_10,
    block_11, block_12, block_13, block_14, block_19, block_20]
  funext j
  show actor2 m c j = actor2 m c (((cfg0.win 23).blk t).view.emb j)
  refine congrArg (actor2 m c) (funext fun a => Fin.ext ?_)
  match a with
  | ⟨0, _⟩ => show (j 0).val = win0_23.index t (0 : Fin 2) * 1 + 1 * (j 0).val; omega
  | ⟨1, _⟩ => show (j 1).val = win0_23.index t (1 : Fin 2) * 3 + 1 * (j 1).val; omega

/-! ## The one block covers the array -/

theorem mem_blk21 (t : Fin cfg0.N) (i : S1x1.Idx) :
    i ∈ ((cfg0.win 21).blk t).view.set ↔ ∀ a : Fin 2, win0_21.index t a * S1x1.size a ≤ (i a).val ∧ (i a).val < win0_21.index t a * S1x1.size a + S1x1.size a := by
  show i ∈ ((View.whole main_v0_0).slice (win0_21.rect t)).set ↔ _
  rw [View.set_slice_whole, Rect.mem_set_unit]
  exact Iff.rfl

theorem mem_blk22 (t : Fin cfg0.N) (i : S1x3.Idx) :
    i ∈ ((cfg0.win 22).blk t).view.set ↔ ∀ a : Fin 2, win0_22.index t a * S1x3.size a ≤ (i a).val ∧ (i a).val < win0_22.index t a * S1x3.size a + S1x3.size a := by
  show i ∈ ((View.whole main_v0_1).slice (win0_22.rect t)).set ↔ _
  rw [View.set_slice_whole, Rect.mem_set_unit]
  exact Iff.rfl

theorem mem_blk23 (t : Fin cfg0.N) (i : S1x3.Idx) :
    i ∈ ((cfg0.win 23).blk t).view.set ↔ ∀ a : Fin 2, win0_23.index t a * S1x3.size a ≤ (i a).val ∧ (i a).val < win0_23.index t a * S1x3.size a + S1x3.size a := by
  show i ∈ ((View.whole main_v0_2).slice (win0_23.rect t)).set ↔ _
  rw [View.set_slice_whole, Rect.mem_set_unit]
  exact Iff.rfl

theorem covered21 (i : S1x1.Idx) : ∃ t : Fin cfg0.N, (cfg0.win 21).flush t = true ∧ i ∈ ((cfg0.win 21).blk t).view.set := by
  refine ⟨t0_0, flush0_21 t0_0, ?_⟩
  have e0 : win0_21.index t0_0 (0 : Fin 2) = 0 := congrFun (origin_21 t0_0) 0
  have e1 : win0_21.index t0_0 (1 : Fin 2) = 0 := congrFun (origin_21 t0_0) 1
  rw [mem_blk21]
  intro a
  match a with
  | ⟨0, _⟩ => show win0_21.index t0_0 (0 : Fin 2) * 1 ≤ (i 0).val ∧ (i 0).val < win0_21.index t0_0 (0 : Fin 2) * 1 + 1; have h : (i 0).val < 1 := (i 0).isLt; omega
  | ⟨1, _⟩ => show win0_21.index t0_0 (1 : Fin 2) * 1 ≤ (i 1).val ∧ (i 1).val < win0_21.index t0_0 (1 : Fin 2) * 1 + 1; have h : (i 1).val < 1 := (i 1).isLt; omega

theorem covered22 (i : S1x3.Idx) : ∃ t : Fin cfg0.N, (cfg0.win 22).flush t = true ∧ i ∈ ((cfg0.win 22).blk t).view.set := by
  refine ⟨t0_0, flush0_22 t0_0, ?_⟩
  have e0 : win0_22.index t0_0 (0 : Fin 2) = 0 := congrFun (origin_22 t0_0) 0
  have e1 : win0_22.index t0_0 (1 : Fin 2) = 0 := congrFun (origin_22 t0_0) 1
  rw [mem_blk22]
  intro a
  match a with
  | ⟨0, _⟩ => show win0_22.index t0_0 (0 : Fin 2) * 1 ≤ (i 0).val ∧ (i 0).val < win0_22.index t0_0 (0 : Fin 2) * 1 + 1; have h : (i 0).val < 1 := (i 0).isLt; omega
  | ⟨1, _⟩ => show win0_22.index t0_0 (1 : Fin 2) * 3 ≤ (i 1).val ∧ (i 1).val < win0_22.index t0_0 (1 : Fin 2) * 3 + 3; have h : (i 1).val < 3 := (i 1).isLt; omega

theorem covered23 (i : S1x3.Idx) : ∃ t : Fin cfg0.N, (cfg0.win 23).flush t = true ∧ i ∈ ((cfg0.win 23).blk t).view.set := by
  refine ⟨t0_0, flush0_23 t0_0, ?_⟩
  have e0 : win0_23.index t0_0 (0 : Fin 2) = 0 := congrFun (origin_23 t0_0) 0
  have e1 : win0_23.index t0_0 (1 : Fin 2) = 0 := congrFun (origin_23 t0_0) 1
  rw [mem_blk23]
  intro a
  match a with
  | ⟨0, _⟩ => show win0_23.index t0_0 (0 : Fin 2) * 1 ≤ (i 0).val ∧ (i 0).val < win0_23.index t0_0 (0 : Fin 2) * 1 + 1; have h : (i 0).val < 1 := (i 0).isLt; omega
  | ⟨1, _⟩ => show win0_23.index t0_0 (1 : Fin 2) * 3 ≤ (i 1).val ∧ (i 1).val < win0_23.index t0_0 (1 : Fin 2) * 3 + 3; have h : (i 1).val < 3 := (i 1).isLt; omega

/-! ## The output arrays after the call -/

theorem final_value (c : Dev nD) : (dats m 0 c).arrAt 21 cfg0.N = value m c :=
  (dats m 0 c).arrAt_eq_of_cover 21 (value m c) (fun t _ => flushed_value m c t) covered21

theorem final_actor (c : Dev nD) : (dats m 0 c).arrAt 22 cfg0.N = actor m c :=
  (dats m 0 c).arrAt_eq_of_cover 22 (actor m c) (fun t _ => flushed_actor m c t) covered22

theorem final_actor2 (c : Dev nD) : (dats m 0 c).arrAt 23 cfg0.N = actor2 m c :=
  (dats m 0 c).arrAt_eq_of_cover 23 (actor2 m c) (fun t _ => flushed_actor2 m c t) covered23

end Cert.KernelIdeal.Arrays

end
-- ==== Proof.KernelRun.lean ====
/-
  The kernel's run, read: after the one call and the three reshapes that follow it, the first result is the
  critic's [1,1] array cast to a scalar, the second and third the two actors' [1,3] arrays cast to vectors of
  three, each a function of the argument arrays as launched; the arguments end unchanged.

  The reshapes read the call's output arrays, which the call's pipeline leaves at what its one point wrote back;
  no window stages a reshape's result, so those three buffers hold what the lines after the call leave in them.
-/
import proofs.«159873_j38903813767521_1_alg».proof.Proof.KernelArrays

set_option maxRecDepth 16384

noncomputable section

namespace Cert.KernelIdeal.Arrays

open Cert.KernelIdeal Cert.KernelIdeal.Gen Idealize.ShloMosaic Idealize.ShloMosaic.TcCoe Idealize.SL.Sem
open Idealize.ShloMosaic.Pipeline (Dat)

variable {F : FTy → Type} [FloatOps F]
variable (m : (ℓ : Loc nD τ sig) → Buf (Elt F) ℓ) (ρ : Dev nD → PrngReg)

/-! ## The three results are no window's array -/

theorem rest_v1 : main_v1 ∈ Pipeline.restRefs sig (cfgs 0).spec := Pipeline.mem_restRefs_of main_v1 rfl (by decide)
theorem rest_v2 : main_v2 ∈ Pipeline.restRefs sig (cfgs 0).spec := Pipeline.mem_restRefs_of main_v2 rfl (by decide)
theorem rest_v3 : main_v3 ∈ Pipeline.restRefs sig (cfgs 0).spec := Pipeline.mem_restRefs_of main_v3 rfl (by decide)

/-! ## The call's output arrays, as the lines after it find them -/

theorem exit_value (c : Dev nD) :
    Pipeline.withArrays (cfgs 0).spec c (V0 m c) (fun w => (dats m 0 c).arrAt w (cfgs 0).N) (Proc.devRef .tc main_v0_0)
      = value m c :=
  (Pipeline.withArrays_arr spec0 launch0.win.arr_inj c _ _ 21).trans (final_value m c)

theorem exit_actor (c : Dev nD) :
    Pipeline.withArrays (cfgs 0).spec c (V0 m c) (fun w => (dats m 0 c).arrAt w (cfgs 0).N) (Proc.devRef .tc main_v0_1)
      = actor m c :=
  (Pipeline.withArrays_arr spec0 launch0.win.arr_inj c _ _ 22).trans (final_actor m c)

theorem exit_actor2 (c : Dev nD) :
    Pipeline.withArrays (cfgs 0).spec c (V0 m c) (fun w => (dats m 0 c).arrAt w (cfgs 0).N) (Proc.devRef .tc main_v0_2)
      = actor2 m c :=
  (Pipeline.withArrays_arr spec0 launch0.win.arr_inj c _ _ 23).trans (final_actor2 m c)

/-! ## The three reshapes -/

theorem tail_v1 (c : Dev nD) :
    Pipeline.afterTail₀ cfgs (dats m) 0 (V0 m) [hostOps1] c main_v1 = shapeCast S_ (value m c) Gen.shapeCasts_S1x1_S_ := by
  unfold Pipeline.afterTail₀
  show StableHlo.after hostOps1 _ (Proc.devRef .tc main_v1) = _
  after_results
  show shapeCast S_ (Pipeline.withArrays (cfgs 0).spec c (V0 m c) (fun w => (dats m 0 c).arrAt w (cfgs 0).N) (Proc.devRef .tc main_v0_0))
      Gen.shapeCasts_S1x1_S_ = shapeCast S_ (value m c) Gen.shapeCasts_S1x1_S_
  exact congrArg (fun X => shapeCast S_ X Gen.shapeCasts_S1x1_S_) (exit_value m c)

theorem tail_v2 (c : Dev nD) :
    Pipeline.afterTail₀ cfgs (dats m) 0 (V0 m) [hostOps1] c main_v2 = shapeCast S3 (actor m c) Gen.shapeCasts_S1x3_S3 := by
  unfold Pipeline.afterTail₀
  show StableHlo.after hostOps1 _ (Proc.devRef .tc main_v2) = _
  after_results
  show shapeCast S3 (Pipeline.withArrays (cfgs 0).spec c (V0 m c) (fun w => (dats m 0 c).arrAt w (cfgs 0).N) (Proc.devRef .tc main_v0_1))
      Gen.shapeCasts_S1x3_S3 = shapeCast S3 (actor m c) Gen.shapeCasts_S1x3_S3
  exact congrArg (fun X => shapeCast S3 X Gen.shapeCasts_S1x3_S3) (exit_actor m c)

theorem tail_v3 (c : Dev nD) :
    Pipeline.afterTail₀ cfgs (dats m) 0 (V0 m) [hostOps1] c main_v3 = shapeCast S3 (actor2 m c) Gen.shapeCasts_S1x3_S3 := by
  unfold Pipeline.afterTail₀
  show StableHlo.after hostOps1 _ (Proc.devRef .tc main_v3) = _
  after_results
  show shapeCast S3 (Pipeline.withArrays (cfgs 0).spec c (V0 m c) (fun w => (dats m 0 c).arrAt w (cfgs 0).N) (Proc.devRef .tc main_v0_2))
      Gen.shapeCasts_S1x3_S3 = shapeCast S3 (actor2 m c) Gen.shapeCasts_S1x3_S3
  exact congrArg (fun X => shapeCast S3 X Gen.shapeCasts_S1x3_S3) (exit_actor2 m c)

/-! ## The run -/

set_option maxHeartbeats 4000000 in
/-- Every weakly fair execution of the kernel's program terminates with the three results at the reshaped values
    of the argument arrays, and the arguments unchanged. -/
theorem run : θ_run defs (onTc (τ := τ) (main (F := F))) ⟨m, fun _ => 0, ρ⟩ fun r => ∀ c : Dev nD,
      r.2.mem ((c.tc : Thread nD τ).loc main_v1) = shapeCast S_ (value m c) Gen.shapeCasts_S1x1_S_
      ∧ r.2.mem ((c.tc : Thread nD τ).loc main_v2) = shapeCast S3 (actor m c) Gen.shapeCasts_S1x3_S3
      ∧ r.2.mem ((c.tc : Thread nD τ).loc main_v3) = shapeCast S3 (actor2 m c) Gen.shapeCasts_S1x3_S3
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20) :=
  (θ_run defs _ _).mono (fun _ h c => ⟨((h c).2 main_v1 rest_v1).trans (tail_v1 m c),
      ((h c).2 main_v2 rest_v2).trans (tail_v2 m c),
      ((h c).2 main_v3 rest_v3).trans (tail_v3 m c),
      ((h c).1 0).trans (((dats m 0 c).arrAt_in 0 rfl _).trans ((A_eq m c 0).trans (V_main_arg0 m c))),
      ((h c).1 1).trans (((dats m 0 c).arrAt_in 1 rfl _).trans ((A_eq m c 1).trans (V_main_arg1 m c))),
      ((h c).1 2).trans (((dats m 0 c).arrAt_in 2 rfl _).trans ((A_eq m c 2).trans (V_main_arg2 m c))),
      ((h c).1 3).trans (((dats m 0 c).arrAt_in 3 rfl _).trans ((A_eq m c 3).trans (V_main_arg3 m c))),
      ((h c).1 4).trans (((dats m 0 c).arrAt_in 4 rfl _).trans ((A_eq m c 4).trans (V_main_arg4 m c))),
      ((h c).1 5).trans (((dats m 0 c).arrAt_in 5 rfl _).trans ((A_eq m c 5).trans (V_main_arg5 m c))),
      ((h c).1 6).trans (((dats m 0 c).arrAt_in 6 rfl _).trans ((A_eq m c 6).trans (V_main_arg6 m c))),
      ((h c).1 7).trans (((dats m 0 c).arrAt_in 7 rfl _).trans ((A_eq m c 7).trans (V_main_arg7 m c))),
      ((h c).1 8).trans (((dats m 0 c).arrAt_in 8 rfl _).trans ((A_eq m c 8).trans (V_main_arg8 m c))),
      ((h c).1 9).trans (((dats m 0 c).arrAt_in 9 rfl _).trans ((A_eq m c 9).trans (V_main_arg9 m c))),
      ((h c).1 10).trans (((dats m 0 c).arrAt_in 10 rfl _).trans ((A_eq m c 10).trans (V_main_arg10 m c))),
      ((h c).1 11).trans (((dats m 0 c).arrAt_in 11 rfl _).trans ((A_eq m c 11).trans (V_main_arg11 m c))),
      ((h c).1 12).trans (((dats m 0 c).arrAt_in 12 rfl _).trans ((A_eq m c 12).trans (V_main_arg12 m c))),
      ((h c).1 13).trans (((dats m 0 c).arrAt_in 13 rfl _).trans ((A_eq m c 13).trans (V_main_arg13 m c))),
      ((h c).1 14).trans (((dats m 0 c).arrAt_in 14 rfl _).trans ((A_eq m c 14).trans (V_main_arg14 m c))),
      ((h c).1 15).trans (((dats m 0 c).arrAt_in 15 rfl _).trans ((A_eq m c 15).trans (V_main_arg15 m c))),
      ((h c).1 16).trans (((dats m 0 c).arrAt_in 16 rfl _).trans ((A_eq m c 16).trans (V_main_arg16 m c))),
      ((h c).1 17).trans (((dats m 0 c).arrAt_in 17 rfl _).trans ((A_eq m c 17).trans (V_main_arg17 m c))),
      ((h c).1 18).trans (((dats m 0 c).arrAt_in 18 rfl _).trans ((A_eq m c 18).trans (V_main_arg18 m c))),
      ((h c).1 19).trans (((dats m 0 c).arrAt_in 19 rfl _).trans ((A_eq m c 19).trans (V_main_arg19 m c))),
      ((h c).1 20).trans (((dats m 0 c).arrAt_in 20 rfl _).trans ((A_eq m c 20).trans (V_main_arg20 m c)))⟩)
    (run_main m ρ)

end Cert.KernelIdeal.Arrays

end
-- ==== Proof.RefStages.lean ====
/-
  The reference's run, read stage by stage. The reference's @main is a straight line of 107 host operations, so
  after it each buffer holds the fold of the operations' results over the launch contents. Each of the three
  result buffers then holds its stage: the composition of the operations that lead to it, as a function of the
  argument arrays (the last of the stages `val_main_v77`, `val_main_v83`, `val_main_v88`, each defined over the
  stages before it, so that a value used three times is written once). No operation writes an argument buffer,
  so each argument ends as launched.
-/
import proofs.«159873_j38903813767521_1_alg».proof.Proof.RefRun
import proofs.«159873_j38903813767521_1_alg».proof.Proof.RefRead

set_option maxRecDepth 16384

noncomputable section

namespace Cert.ReferenceIdeal.Stages

open Cert.ReferenceIdeal Cert.ReferenceIdeal.Gen Cert.ReferenceIdeal.ValueP Cert.ReferenceIdeal.ReadP
open Idealize.ShloMosaic Idealize.ShloMosaic.TcCoe Idealize.SL.Sem Idealize.ShloMosaic.StableHlo

variable {F : FTy → Type} [FloatOps F]

/-- No operation of the line allocates: each determines its results. -/
theorem ops_fresh : (ops : List (HloOp τ sig (Elt F))).Forall fun op => op.fresh = ∅ := by
  simp only [List.Forall]; repeat' constructor

/-! ## The three results -/

set_option maxHeartbeats 8000000 in
/-- The critic's value: the buffer of the first result holds its stage of the arguments. -/
theorem after_v77 (V : Valuation τ sig (Elt F)) :
    after (ops (F := F)) V (Proc.devRef .tc main_v77)
      = val_main_v77 (F := F) (V (Proc.devRef .tc main_arg0)) (V (Proc.devRef .tc main_arg1)) (V (Proc.devRef .tc main_arg2))
          (V (Proc.devRef .tc main_arg3)) (V (Proc.devRef .tc main_arg4)) (V (Proc.devRef .tc main_arg5)) (V (Proc.devRef .tc main_arg6))
          (V (Proc.devRef .tc main_arg7)) (V (Proc.devRef .tc main_arg8)) (V (Proc.devRef .tc main_arg9)) (V (Proc.devRef .tc main_arg10))
          (V (Proc.devRef .tc main_arg11)) (V (Proc.devRef .tc main_arg12)) (V (Proc.devRef .tc main_arg13)) (V (Proc.devRef .tc main_arg14))
          (V (Proc.devRef .tc main_arg15)) (V (Proc.devRef .tc main_arg16)) := by
  after_results_simp
  rfl

set_option maxHeartbeats 8000000 in
/-- The first actor's output, after the soft sign. -/
theorem after_v83 (V : Valuation τ sig (Elt F)) :
    after (ops (F := F)) V (Proc.devRef .tc main_v83)
      = val_main_v83 (F := F) (V (Proc.devRef .tc main_arg0)) (V (Proc.devRef .tc main_arg1)) (V (Proc.devRef .tc main_arg2))
          (V (Proc.devRef .tc main_arg3)) (V (Proc.devRef .tc main_arg4)) (V (Proc.devRef .tc main_arg5)) (V (Proc.devRef .tc main_arg6))
          (V (Proc.devRef .tc main_arg7)) (V (Proc.devRef .tc main_arg8)) (V (Proc.devRef .tc main_arg9)) (V (Proc.devRef .tc main_arg10))
          (V (Proc.devRef .tc main_arg11)) (V (Proc.devRef .tc main_arg12)) (V (Proc.devRef .tc main_arg13)) (V (Proc.devRef .tc main_arg14))
          (V (Proc.devRef .tc main_arg17)) (V (Proc.devRef .tc main_arg18)) := by
  after_results_simp
  rfl

set_option maxHeartbeats 8000000 in
/-- The second actor's output. -/
theorem after_v88 (V : Valuation τ sig (Elt F)) :
    after (ops (F := F)) V (Proc.devRef .tc main_v88)
      = val_main_v88 (F := F) (V (Proc.devRef .tc main_arg0)) (V (Proc.devRef .tc main_arg1)) (V (Proc.devRef .tc main_arg2))
          (V (Proc.devRef .tc main_arg3)) (V (Proc.devRef .tc main_arg4)) (V (Proc.devRef .tc main_arg5)) (V (Proc.devRef .tc main_arg6))
          (V (Proc.devRef .tc main_arg7)) (V (Proc.devRef .tc main_arg8)) (V (Proc.devRef .tc main_arg9)) (V (Proc.devRef .tc main_arg10))
          (V (Proc.devRef .tc main_arg11)) (V (Proc.devRef .tc main_arg12)) (V (Proc.devRef .tc main_arg13)) (V (Proc.devRef .tc main_arg14))
          (V (Proc.devRef .tc main_arg19)) (V (Proc.devRef .tc main_arg20)) := by
  after_results_simp
  rfl

/-! ## The arguments are never written -/

theorem after_arg0 (V : Valuation τ sig (Elt F)) : after (ops (F := F)) V (Proc.devRef .tc main_arg0) = V (Proc.devRef .tc main_arg0) := by
  after_results_simp
theorem after_arg1 (V : Valuation τ sig (Elt F)) : after (ops (F := F)) V (Proc.devRef .tc main_arg1) = V (Proc.devRef .tc main_arg1) := by
  after_results_simp
theorem after_arg2 (V : Valuation τ sig (Elt F)) : after (ops (F := F)) V (Proc.devRef .tc main_arg2) = V (Proc.devRef .tc main_arg2) := by
  after_results_simp
theorem after_arg3 (V : Valuation τ sig (Elt F)) : after (ops (F := F)) V (Proc.devRef .tc main_arg3) = V (Proc.devRef .tc main_arg3) := by
  after_results_simp
theorem after_arg4 (V : Valuation τ sig (Elt F)) : after (ops (F := F)) V (Proc.devRef .tc main_arg4) = V (Proc.devRef .tc main_arg4) := by
  after_results_simp
theorem after_arg5 (V : Valuation τ sig (Elt F)) : after (ops (F := F)) V (Proc.devRef .tc main_arg5) = V (Proc.devRef .tc main_arg5) := by
  after_results_simp
theorem after_arg6 (V : Valuation τ sig (Elt F)) : after (ops (F := F)) V (Proc.devRef .tc main_arg6) = V (Proc.devRef .tc main_arg6) := by
  after_results_simp
theorem after_arg7 (V : Valuation τ sig (Elt F)) : after (ops (F := F)) V (Proc.devRef .tc main_arg7) = V (Proc.devRef .tc main_arg7) := by
  after_results_simp
theorem after_arg8 (V : Valuation τ sig (Elt F)) : after (ops (F := F)) V (Proc.devRef .tc main_arg8) = V (Proc.devRef .tc main_arg8) := by
  after_results_simp
theorem after_arg9 (V : Valuation τ sig (Elt F)) : after (ops (F := F)) V (Proc.devRef .tc main_arg9) = V (Proc.devRef .tc main_arg9) := by
  after_results_simp
theorem after_arg10 (V : Valuation τ sig (Elt F)) : after (ops (F := F)) V (Proc.devRef .tc main_arg10) = V (Proc.devRef .tc main_arg10) := by
  after_results_simp
theorem after_arg11 (V : Valuation τ sig (Elt F)) : after (ops (F := F)) V (Proc.devRef .tc main_arg11) = V (Proc.devRef .tc main_arg11) := by
  after_results_simp
theorem after_arg12 (V : Valuation τ sig (Elt F)) : after (ops (F := F)) V (Proc.devRef .tc main_arg12) = V (Proc.devRef .tc main_arg12) := by
  after_results_simp
theorem after_arg13 (V : Valuation τ sig (Elt F)) : after (ops (F := F)) V (Proc.devRef .tc main_arg13) = V (Proc.devRef .tc main_arg13) := by
  after_results_simp
theorem after_arg14 (V : Valuation τ sig (Elt F)) : after (ops (F := F)) V (Proc.devRef .tc main_arg14) = V (Proc.devRef .tc main_arg14) := by
  after_results_simp
theorem after_arg15 (V : Valuation τ sig (Elt F)) : after (ops (F := F)) V (Proc.devRef .tc main_arg15) = V (Proc.devRef .tc main_arg15) := by
  after_results_simp
theorem after_arg16 (V : Valuation τ sig (Elt F)) : after (ops (F := F)) V (Proc.devRef .tc main_arg16) = V (Proc.devRef .tc main_arg16) := by
  after_results_simp
theorem after_arg17 (V : Valuation τ sig (Elt F)) : after (ops (F := F)) V (Proc.devRef .tc main_arg17) = V (Proc.devRef .tc main_arg17) := by
  after_results_simp
theorem after_arg18 (V : Valuation τ sig (Elt F)) : after (ops (F := F)) V (Proc.devRef .tc main_arg18) = V (Proc.devRef .tc main_arg18) := by
  after_results_simp
theorem after_arg19 (V : Valuation τ sig (Elt F)) : after (ops (F := F)) V (Proc.devRef .tc main_arg19) = V (Proc.devRef .tc main_arg19) := by
  after_results_simp
theorem after_arg20 (V : Valuation τ sig (Elt F)) : after (ops (F := F)) V (Proc.devRef .tc main_arg20) = V (Proc.devRef .tc main_arg20) := by
  after_results_simp

/-! ## The run -/

/-- Every weakly fair execution of the reference terminates with each result at its stage of the arguments as
    launched, and the arguments unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v77)
        = val_main_v77 (F := F) (m ((c.tc : Thread nD τ).loc main_arg0)) (m ((c.tc : Thread nD τ).loc main_arg1)) (m ((c.tc : Thread nD τ).loc main_arg2))
            (m ((c.tc : Thread nD τ).loc main_arg3)) (m ((c.tc : Thread nD τ).loc main_arg4)) (m ((c.tc : Thread nD τ).loc main_arg5)) (m ((c.tc : Thread nD τ).loc main_arg6))
            (m ((c.tc : Thread nD τ).loc main_arg7)) (m ((c.tc : Thread nD τ).loc main_arg8)) (m ((c.tc : Thread nD τ).loc main_arg9)) (m ((c.tc : Thread nD τ).loc main_arg10))
            (m ((c.tc : Thread nD τ).loc main_arg11)) (m ((c.tc : Thread nD τ).loc main_arg12)) (m ((c.tc : Thread nD τ).loc main_arg13)) (m ((c.tc : Thread nD τ).loc main_arg14))
            (m ((c.tc : Thread nD τ).loc main_arg15)) (m ((c.tc : Thread nD τ).loc main_arg16))
      ∧ r.2.mem ((c.tc : Thread nD τ).loc main_v83)
        = val_main_v83 (F := F) (m ((c.tc : Thread nD τ).loc main_arg0)) (m ((c.tc : Thread nD τ).loc main_arg1)) (m ((c.tc : Thread nD τ).loc main_arg2))
            (m ((c.tc : Thread nD τ).loc main_arg3)) (m ((c.tc : Thread nD τ).loc main_arg4)) (m ((c.tc : Thread nD τ).loc main_arg5)) (m ((c.tc : Thread nD τ).loc main_arg6))
            (m ((c.tc : Thread nD τ).loc main_arg7)) (m ((c.tc : Thread nD τ).loc main_arg8)) (m ((c.tc : Thread nD τ).loc main_arg9)) (m ((c.tc : Thread nD τ).loc main_arg10))
            (m ((c.tc : Thread nD τ).loc main_arg11)) (m ((c.tc : Thread nD τ).loc main_arg12)) (m ((c.tc : Thread nD τ).loc main_arg13)) (m ((c.tc : Thread nD τ).loc main_arg14))
            (m ((c.tc : Thread nD τ).loc main_arg17)) (m ((c.tc : Thread nD τ).loc main_arg18))
      ∧ r.2.mem ((c.tc : Thread nD τ).loc main_v88)
        = val_main_v88 (F := F) (m ((c.tc : Thread nD τ).loc main_arg0)) (m ((c.tc : Thread nD τ).loc main_arg1)) (m ((c.tc : Thread nD τ).loc main_arg2))
            (m ((c.tc : Thread nD τ).loc main_arg3)) (m ((c.tc : Thread nD τ).loc main_arg4)) (m ((c.tc : Thread nD τ).loc main_arg5)) (m ((c.tc : Thread nD τ).loc main_arg6))
            (m ((c.tc : Thread nD τ).loc main_arg7)) (m ((c.tc : Thread nD τ).loc main_arg8)) (m ((c.tc : Thread nD τ).loc main_arg9)) (m ((c.tc : Thread nD τ).loc main_arg10))
            (m ((c.tc : Thread nD τ).loc main_arg11)) (m ((c.tc : Thread nD τ).loc main_arg12)) (m ((c.tc : Thread nD τ).loc main_arg13)) (m ((c.tc : Thread nD τ).loc main_arg14))
            (m ((c.tc : Thread nD τ).loc main_arg19)) (m ((c.tc : Thread nD τ).loc main_arg20))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20) :=
  (θ_run defs _ _).mono (fun _ h c => ⟨(h c main_v77).trans (after_v77 _), (h c main_v83).trans (after_v83 _),
      (h c main_v88).trans (after_v88 _),
      (h c main_arg0).trans (after_arg0 _), (h c main_arg1).trans (after_arg1 _), (h c main_arg2).trans (after_arg2 _),
      (h c main_arg3).trans (after_arg3 _), (h c main_arg4).trans (after_arg4 _), (h c main_arg5).trans (after_arg5 _),
      (h c main_arg6).trans (after_arg6 _), (h c main_arg7).trans (after_arg7 _), (h c main_arg8).trans (after_arg8 _),
      (h c main_arg9).trans (after_arg9 _), (h c main_arg10).trans (after_arg10 _), (h c main_arg11).trans (after_arg11 _),
      (h c main_arg12).trans (after_arg12 _), (h c main_arg13).trans (after_arg13 _), (h c main_arg14).trans (after_arg14 _),
      (h c main_arg15).trans (after_arg15 _), (h c main_arg16).trans (after_arg16 _), (h c main_arg17).trans (after_arg17 _),
      (h c main_arg18).trans (after_arg18 _), (h c main_arg19).trans (after_arg19 _), (h c main_arg20).trans (after_arg20 _)⟩)
    (run_seq scopedRefs_eq scopedSems_eq defs main (fun _ => ops) main_eq (fun _ => ops_sub) m ρ
      (fun _ => List.forall_iff_forall_mem.mp ops_fresh))

end Cert.ReferenceIdeal.Stages

end
-- ==== Proof.LibDense.lean ====
/-
  Three facts about one row of a dense layer, at the ideal values, each for every extent.

  * A matrix product whose right operand is contracted along its LAST axis, accumulated into zeros, is the plain
    product (rows times columns, no accumulator) with the right operand transposed: entry (r, c) of either is
    the sum over k of a (r, k) * w (c, k).
  * A vector of n entries cast to a one-row matrix is the vector broadcast along axis 1 of a [1, n] matrix:
    entry (0, c) of either is entry c of the vector.
  * The logistic function is 1 / (1 + e^(-x)) written with a negation, an exponential, a sum and a quotient over
    the constant one, at every extended real (the infinities included).
-/
import Idealize.ShloMosaic.Lib.Pipeline.Value
import Idealize.ShloMosaic.Lib.ValueIdx
import Idealize.ShloMosaic.Lib.IdealHost
import Idealize.ShloMosaic.PureOps.Ideal.Laws

noncomputable section

namespace Idealize.ShloMosaic.DenseRow

open Idealize.ShloMosaic Idealize.ShloMosaic.ValueIdx

/-- The left operand is read at the same index by both sets of dimension numbers: row from the result's row,
    column from the contraction. -/
theorem lhsIdx_transposedRhs_eq_plain {M K N : Nat} (j : (⟨2, ![M, N]⟩ : Shape).Idx)
    (q : (DotDims.transposedRhs M K N).contr.Idx) :
    (DotDims.transposedRhs M K N).lhsIdx j q = (DotDims.plain M K N).lhsIdx j q :=
  funext fun a => Fin.ext (by
    match a with
    | ⟨0, _⟩ => rfl
    | ⟨1, _⟩ => rfl)

/-- A product contracted along the right operand's last axis, into a zero accumulator, is the plain product with
    the transposed right operand: both are the sum over k of a (r, k) * w (c, k), whatever the two precisions. -/
theorem matmul_transposedRhs_eq_dotGeneral_transpose {M K N : Nat} {φ₁ φ₂ : FTy}
    (prec prec' : Option ContractPrecision)
    (a : FVec Ideal ⟨2, ![M, K]⟩ φ₁) (w : FVec Ideal ⟨2, ![N, K]⟩ φ₂)
    (ht : (⟨2, ![N, K]⟩ : Shape).Transposes [1, 0] ⟨2, ![K, N]⟩) :
    matmul (DotDims.transposedRhs M K N) prec a w (constant ⟨2, ![M, N]⟩ .f32 0x00000000#32)
      = Host.dotGeneral (DotDims.plain M K N) prec' a (transpose ⟨2, ![K, N]⟩ [1, 0] w ht) := by
  funext j
  show FloatOps.matmul (DotDims.transposedRhs M K N) prec a w (constant ⟨2, ![M, N]⟩ .f32 0x00000000#32) j
    = FloatOps.dotGeneral (DotDims.plain M K N) prec' _ a (transpose ⟨2, ![K, N]⟩ [1, 0] w ht) j
  rw [Ideal.matmul_constant_zero_apply, Ideal.dotGeneral_apply]
  refine Finset.sum_congr rfl fun q _ => ?_
  rw [lhsIdx_transposedRhs_eq_plain]
  refine congrArg (a ((DotDims.plain M K N).lhsIdx j q) * ·) (Eq.symm ?_)
  exact transpose_apply [1, 0] w ht ((DotDims.plain M K N).rhsIdx j q) ((DotDims.transposedRhs M K N).rhsIdx j q)
    (fun b => by
      match b with
      | ⟨0, _⟩ => rfl
      | ⟨1, _⟩ => rfl)

/-- A vector cast to one row is the vector broadcast along axis 1 of a one-row matrix. -/
theorem shapeCast_row_eq_broadcastInDim {α : Type} {n : Nat} (x : (⟨1, ![n]⟩ : Shape).Idx → α)
    (h1 : (⟨1, ![n]⟩ : Shape).ShapeCasts ⟨2, ![1, n]⟩)
    (hd : (⟨1, ![n]⟩ : Shape).BroadcastsInDim ⟨2, ![1, n]⟩ ![1]) :
    shapeCast ⟨2, ![1, n]⟩ x h1 = broadcastInDim ⟨2, ![1, n]⟩ ![1] hd x := by
  funext i
  have h0 : (i 0).val = 0 := by
    have h : (i 0).val < 1 := (i 0).isLt
    omega
  have e1 := shapeCast_apply x h1 i (ix1 (i 1 : Fin n)) (by
    rw [Shape.rowMajor_val_two, Shape.rowMajor_val_one]
    show (i 1).val = (i 0).val * n + (i 1).val
    rw [h0]; omega)
  have e2 := broadcastInDim_apply ![1] hd x i (ix1 (i 1 : Fin n)) (by
    intro a
    match a with
    | ⟨0, _⟩ =>
      show (i 1).val = if n = 1 then 0 else (i 1).val
      split
      · have h : (i 1).val < n := (i 1).isLt
        omega
      · rfl)
  exact e1.trans e2.symm

/-- The logistic function, element by element, is the quotient of one by one plus the exponential of the negated
    argument, the ones broadcast from the constant with the pattern of 1.0. -/
theorem logistic_eq_one_div_one_add_exp_neg {s : Shape} (x : FVec Ideal s .f32)
    (hb hb' : (⟨0, ![]⟩ : Shape).BroadcastsInDim s ![]) :
    logistic x
      = Host.divf (broadcastInDim s ![] hb (constant ⟨0, ![]⟩ .f32 0x3F800000#32))
          (addf (broadcastInDim s ![] hb' (constant ⟨0, ![]⟩ .f32 0x3F800000#32)) (Host.exp (Host.negf x))) := by
  funext i
  show Ideal.logistic (x i)
    = Ideal.div (Ideal.ofBits .f32 0x3F800000#32) (Ideal.ofBits .f32 0x3F800000#32 + Ideal.exp (-(x i)))
  rw [Ideal.ofBits_one_f32]
  rfl

end Idealize.ShloMosaic.DenseRow

end
-- ==== Proof.Layers.lean ====
/-
  The network layer by layer: each value the kernel's body computes is the value the reference computes at the
  same place, as whole arrays over the extended reals.

  A dense layer is a row a times the transposed weight matrix plus the bias laid along the row; the kernel
  contracts a against the weights' last axis and casts the bias to one row, the reference transposes the
  weights and broadcasts the bias (the three general facts of LibDense). The leaky rectifier is the same
  compare, scale and select on both sides, over the same constants 0 and 0.1. The four gates are slices of
  one row of 512 sums: the kernel adds (h W_ih^T + b_ih) + (hx W_hh^T + b_hh), the reference adds the four
  terms from the left, and addition of extended reals is associative. The kernel's logistic is the
  reference's 1 / (1 + e^(-x)), the two hyperbolic tangents are one function, and the soft sign divides by
  1 + |x| in the kernel and by |x| + 1 in the reference, addition being commutative. No step needs the
  inputs to be finite.
-/
import proofs.«159873_j38903813767521_1_alg».proof.Proof.Gen.KernelIdeal.Skeleton
import proofs.«159873_j38903813767521_1_alg».proof.Proof.RefRead
import proofs.«159873_j38903813767521_1_alg».proof.Proof.LibDense
import Idealize.ShloMosaic.Lib.KernelVsHost

noncomputable section

namespace Cert.Layers

open Idealize.ShloMosaic Cert.ReferenceIdeal Cert.ReferenceIdeal.Gen Cert.ReferenceIdeal.ReadP

/-! ## The dense layers' products, one per pair of extents -/

theorem prod_29_256 (a : FVec Ideal S1x29 .f32) (w : FVec Ideal S256x29 .f32) :
    matmul Cert.KernelIdeal.dot_S1x29_S256x29_S1x256_1_1_0_0_n_n (some .fp32) a w (constant Cert.KernelIdeal.S1x256 .f32 0x00000000#32)
      = Host.dotGeneral dot_S1x29_S29x256_S1x256_1_0_0_1_n_n none a (transpose S29x256 [1, 0] w transposes_S256x29_S29x256_1_0) :=
  DenseRow.matmul_transposedRhs_eq_dotGeneral_transpose (M := 1) (K := 29) (N := 256) _ _ a w _

theorem prod_256_256 (a : FVec Ideal S1x256 .f32) (w : FVec Ideal S256x256 .f32) :
    matmul Cert.KernelIdeal.dot_S1x256_S256x256_S1x256_1_1_0_0_n_n (some .fp32) a w (constant Cert.KernelIdeal.S1x256 .f32 0x00000000#32)
      = Host.dotGeneral dot_S1x256_S256x256_S1x256_1_0_0_1_n_n none a (transpose S256x256 [1, 0] w transposes_S256x256_S256x256_1_0) :=
  DenseRow.matmul_transposedRhs_eq_dotGeneral_transpose (M := 1) (K := 256) (N := 256) _ _ a w _

theorem prod_256_128 (a : FVec Ideal S1x256 .f32) (w : FVec Ideal S128x256 .f32) :
    matmul Cert.KernelIdeal.dot_S1x256_S128x256_S1x128_1_1_0_0_n_n (some .fp32) a w (constant Cert.KernelIdeal.S1x128 .f32 0x00000000#32)
      = Host.dotGeneral dot_S1x256_S256x128_S1x128_1_0_0_1_n_n none a (transpose S256x128 [1, 0] w transposes_S128x256_S256x128_1_0) :=
  DenseRow.matmul_transposedRhs_eq_dotGeneral_transpose (M := 1) (K := 256) (N := 128) _ _ a w _

theorem prod_128_128 (a : FVec Ideal S1x128 .f32) (w : FVec Ideal S128x128 .f32) :
    matmul Cert.KernelIdeal.dot_S1x128_S128x128_S1x128_1_1_0_0_n_n (some .fp32) a w (constant Cert.KernelIdeal.S1x128 .f32 0x00000000#32)
      = Host.dotGeneral dot_S1x128_S128x128_S1x128_1_0_0_1_n_n none a (transpose S128x128 [1, 0] w transposes_S128x128_S128x128_1_0) :=
  DenseRow.matmul_transposedRhs_eq_dotGeneral_transpose (M := 1) (K := 128) (N := 128) _ _ a w _

theorem prod_128_512 (a : FVec Ideal S1x128 .f32) (w : FVec Ideal S512x128 .f32) :
    matmul Cert.KernelIdeal.dot_S1x128_S512x128_S1x512_1_1_0_0_n_n (some .fp32) a w (constant Cert.KernelIdeal.S1x512 .f32 0x00000000#32)
      = Host.dotGeneral dot_S1x128_S128x512_S1x512_1_0_0_1_n_n none a (transpose S128x512 [1, 0] w transposes_S512x128_S128x512_1_0) :=
  DenseRow.matmul_transposedRhs_eq_dotGeneral_transpose (M := 1) (K := 128) (N := 512) _ _ a w _

theorem prod_128_1 (a : FVec Ideal S1x128 .f32) (w : FVec Ideal S1x128 .f32) :
    matmul Cert.KernelIdeal.dot_S1x128_S1x128_S1x1_1_1_0_0_n_n (some .fp32) a w (constant Cert.KernelIdeal.S1x1 .f32 0x00000000#32)
      = Host.dotGeneral dot_S1x128_S128x1_S1x1_1_0_0_1_n_n none a (transpose S128x1 [1, 0] w transposes_S1x128_S128x1_1_0) :=
  DenseRow.matmul_transposedRhs_eq_dotGeneral_transpose (M := 1) (K := 128) (N := 1) _ _ a w _

theorem prod_128_3 (a : FVec Ideal S1x128 .f32) (w : FVec Ideal S3x128 .f32) :
    matmul Cert.KernelIdeal.dot_S1x128_S3x128_S1x3_1_1_0_0_n_n (some .fp32) a w (constant Cert.KernelIdeal.S1x3 .f32 0x00000000#32)
      = Host.dotGeneral dot_S1x128_S128x3_S1x3_1_0_0_1_n_n none a (transpose S128x3 [1, 0] w transposes_S3x128_S128x3_1_0) :=
  DenseRow.matmul_transposedRhs_eq_dotGeneral_transpose (M := 1) (K := 128) (N := 3) _ _ a w _

/-! ## The biases laid along the row -/

theorem bias_256 (b : FVec Ideal S256 .f32) :
    shapeCast Cert.KernelIdeal.S1x256 b Cert.KernelIdeal.Gen.shapeCasts_S256_S1x256 = broadcastInDim S1x256 ![1] bcast_S256_S1x256_1 b :=
  DenseRow.shapeCast_row_eq_broadcastInDim (n := 256) b _ _

theorem bias_128 (b : FVec Ideal S128 .f32) :
    shapeCast Cert.KernelIdeal.S1x128 b Cert.KernelIdeal.Gen.shapeCasts_S128_S1x128 = broadcastInDim S1x128 ![1] bcast_S128_S1x128_1 b :=
  DenseRow.shapeCast_row_eq_broadcastInDim (n := 128) b _ _

theorem bias_512 (b : FVec Ideal S512 .f32) :
    shapeCast Cert.KernelIdeal.S1x512 b Cert.KernelIdeal.Gen.shapeCasts_S512_S1x512 = broadcastInDim S1x512 ![1] bcast_S512_S1x512_1 b :=
  DenseRow.shapeCast_row_eq_broadcastInDim (n := 512) b _ _

theorem bias_1 (b : FVec Ideal S1 .f32) :
    shapeCast Cert.KernelIdeal.S1x1 b Cert.KernelIdeal.Gen.shapeCasts_S1_S1x1 = broadcastInDim S1x1 ![1] bcast_S1_S1x1_1 b :=
  DenseRow.shapeCast_row_eq_broadcastInDim (n := 1) b _ _

theorem bias_3 (b : FVec Ideal S3 .f32) :
    shapeCast Cert.KernelIdeal.S1x3 b Cert.KernelIdeal.Gen.shapeCasts_S3_S1x3 = broadcastInDim S1x3 ![1] bcast_S3_S1x3_1 b :=
  DenseRow.shapeCast_row_eq_broadcastInDim (n := 3) b _ _

/-! ## A constant over a whole row -/

theorem splat_256 (b : BitVec 32) :
    broadcast Cert.KernelIdeal.S1x256 (Scalar.ofBits (F := Ideal) .f32 b) = broadcastInDim S1x256 ![] bcast_S_S1x256 (constant S_ .f32 b) :=
  funext fun _ => rfl

theorem splat_128 (b : BitVec 32) :
    broadcast Cert.KernelIdeal.S1x128 (Scalar.ofBits (F := Ideal) .f32 b) = broadcastInDim S1x128 ![] bcast_S_S1x128 (constant S_ .f32 b) :=
  funext fun _ => rfl

theorem splat_3 (b : BitVec 32) :
    broadcast Cert.KernelIdeal.S1x3 (Scalar.ofBits (F := Ideal) .f32 b) = broadcastInDim S1x3 ![] bcast_S_S1x3 (constant S_ .f32 b) :=
  funext fun _ => rfl

/-! ## The pointwise laws -/

/-- Four terms added as two pairs are the four added from the left: addition of extended reals is associative. -/
theorem addf_pairs {s : Shape} (a b c d : FVec Ideal s .f32) :
    addf (addf a b) (addf c d) = addf (addf (addf a b) c) d :=
  funext fun i => by
    show (a i + b i) + (c i + d i) = ((a i + b i) + c i) + d i
    rw [add_assoc (a i + b i)]

/-- The logistic function of a row of 128 is the reference's quotient 1 / (1 + e^(-x)). -/
theorem logistic_128 (x : FVec Ideal S1x128 .f32) :
    logistic x = Host.divf (broadcastInDim S1x128 ![] bcast_S_S1x128 (constant S_ .f32 0x3F800000#32))
      (addf (broadcastInDim S1x128 ![] bcast_S_S1x128 (constant S_ .f32 0x3F800000#32)) (Host.exp (Host.negf x))) :=
  DenseRow.logistic_eq_one_div_one_add_exp_neg x _ _

/-- The hyperbolic tangent is one function in a kernel and on the host. -/
theorem tanh_host {s : Shape} (x : FVec Ideal s .f32) : tanh x = Host.tanh x := rfl

/-- The soft sign: x / (1 + |x|) is x / (|x| + 1), addition of extended reals being commutative. -/
theorem softsign {s : Shape} (x one : FVec Ideal s .f32) :
    divf x (addf one (absf x)) = Host.divf x (addf (Host.absf x) one) :=
  funext fun i => by
    show Ideal.div (x i) (one i + FloatOps.absf (x i)) = Ideal.div (x i) (FloatOps.absf (x i) + one i)
    rw [add_comm]

/-! ## The body's values are the reference's -/

/-- The first three layers. -/
theorem layers_1_2_3 (x0 : FVec Ideal S1x29 .f32) (x3 : FVec Ideal S256x29 .f32) (x4 : FVec Ideal S256 .f32)
    (x5 : FVec Ideal S256x256 .f32) (x6 : FVec Ideal S256 .f32) (x7 : FVec Ideal S128x256 .f32) (x8 : FVec Ideal S128 .f32) :
    Cert.KernelIdeal.Gen.k0_pay3 (F := Ideal) x0 x3 x4 x5 x6 x7 x8 = val_main_v26 (F := Ideal) x0 x3 x4 x5 x6 x7 x8 := by
  unfold Cert.KernelIdeal.Gen.k0_pay3
  simp only [prod_29_256, prod_256_256, prod_256_128, bias_256, bias_128, splat_256, splat_128]
  simp only [val_main_v26, val_main_v25, val_main_v24, val_main_cst_4, val_main_v23, val_main_v22, val_main_cst_3,
    val_main_v21, val_main_v20, val_main_v19, val_main_v18, val_main_v17, val_main_v16, val_main_v15, val_main_cst_2,
    val_main_v14, val_main_v13, val_main_cst_1, val_main_v12, val_main_v11, val_main_v10, val_main_v9, val_main_v8,
    val_main_v7, val_main_v6, val_main_cst_0, val_main_v5, val_main_v4, val_main_cst, val_main_v3, val_main_v2,
    val_main_v1, val_main_v0]

/-- The fourth layer and the recurrent cell: the new hidden state. -/
theorem hidden (x0 : FVec Ideal S1x29 .f32) (x1 x2 : FVec Ideal S1x128 .f32) (x3 : FVec Ideal S256x29 .f32)
    (x4 : FVec Ideal S256 .f32) (x5 : FVec Ideal S256x256 .f32) (x6 : FVec Ideal S256 .f32) (x7 : FVec Ideal S128x256 .f32)
    (x8 : FVec Ideal S128 .f32) (x9 : FVec Ideal S128x128 .f32) (x10 : FVec Ideal S128 .f32) (x11 : FVec Ideal S512x128 .f32)
    (x12 : FVec Ideal S512 .f32) (x13 : FVec Ideal S512x128 .f32) (x14 : FVec Ideal S512 .f32) :
    Cert.KernelIdeal.Gen.k0_pay4 (F := Ideal) x1 x2 (val_main_v26 (F := Ideal) x0 x3 x4 x5 x6 x7 x8) x9 x10 x11 x12 x13 x14
      = val_main_v72 (F := Ideal) x0 x1 x2 x3 x4 x5 x6 x7 x8 x9 x10 x11 x12 x13 x14 := by
  unfold Cert.KernelIdeal.Gen.k0_pay4
  simp only [prod_128_128, prod_128_512, bias_128, bias_512, splat_128, addf_pairs, logistic_128, tanh_host]
  simp only [val_main_v72, val_main_v71, val_main_v70, val_main_v69, val_main_cst_12, val_main_v68, val_main_v67,
    val_main_cst_11, val_main_v66, val_main_v65, val_main_v64, val_main_v63, val_main_v62, val_main_v61, val_main_v60,
    val_main_cst_10, val_main_v59, val_main_v58, val_main_cst_9, val_main_v57, val_main_v56, val_main_v55, val_main_v54,
    val_main_v53, val_main_cst_8, val_main_v52, val_main_v51, val_main_cst_7, val_main_v50, val_main_v49, val_main_v48,
    val_main_v47, val_main_v46, val_main_v45, val_main_v44, val_main_v43, val_main_v42, val_main_v41, val_main_v40,
    val_main_v39, val_main_v38, val_main_v37, val_main_v36, val_main_v35, val_main_v34, val_main_v33, val_main_cst_6,
    val_main_v32, val_main_v31, val_main_cst_5, val_main_v30, val_main_v29, val_main_v28, val_main_v27]

/-- The critic's head. -/
theorem critic (x0 : FVec Ideal S1x29 .f32) (x1 x2 : FVec Ideal S1x128 .f32) (x3 : FVec Ideal S256x29 .f32)
    (x4 : FVec Ideal S256 .f32) (x5 : FVec Ideal S256x256 .f32) (x6 : FVec Ideal S256 .f32) (x7 : FVec Ideal S128x256 .f32)
    (x8 : FVec Ideal S128 .f32) (x9 : FVec Ideal S128x128 .f32) (x10 : FVec Ideal S128 .f32) (x11 : FVec Ideal S512x128 .f32)
    (x12 : FVec Ideal S512 .f32) (x13 : FVec Ideal S512x128 .f32) (x14 : FVec Ideal S512 .f32) (x15 : FVec Ideal S1x128 .f32)
    (x16 : FVec Ideal S1 .f32) :
    Cert.KernelIdeal.Gen.k0_pay5 (F := Ideal) x1 x2 (Cert.KernelIdeal.Gen.k0_pay3 (F := Ideal) x0 x3 x4 x5 x6 x7 x8) x9 x10 x11 x12 x13 x14 x15 x16
      = val_main_v76 (F := Ideal) x0 x1 x2 x3 x4 x5 x6 x7 x8 x9 x10 x11 x12 x13 x14 x15 x16 := by
  unfold Cert.KernelIdeal.Gen.k0_pay5
  rw [layers_1_2_3, hidden]
  simp only [prod_128_1, bias_1]
  simp only [val_main_v76, val_main_v75, val_main_v74, val_main_v73]

/-- The first actor's head, through the soft sign. -/
theorem actor (x0 : FVec Ideal S1x29 .f32) (x1 x2 : FVec Ideal S1x128 .f32) (x3 : FVec Ideal S256x29 .f32)
    (x4 : FVec Ideal S256 .f32) (x5 : FVec Ideal S256x256 .f32) (x6 : FVec Ideal S256 .f32) (x7 : FVec Ideal S128x256 .f32)
    (x8 : FVec Ideal S128 .f32) (x9 : FVec Ideal S128x128 .f32) (x10 : FVec Ideal S128 .f32) (x11 : FVec Ideal S512x128 .f32)
    (x12 : FVec Ideal S512 .f32) (x13 : FVec Ideal S512x128 .f32) (x14 : FVec Ideal S512 .f32) (x17 : FVec Ideal S3x128 .f32)
    (x18 : FVec Ideal S3 .f32) :
    Cert.KernelIdeal.Gen.k0_pay1 (F := Ideal)
        (Cert.KernelIdeal.Gen.k0_pay4 (F := Ideal) x1 x2 (Cert.KernelIdeal.Gen.k0_pay3 (F := Ideal) x0 x3 x4 x5 x6 x7 x8) x9 x10 x11 x12 x13 x14) x17 x18
      = val_main_v82 (F := Ideal) x0 x1 x2 x3 x4 x5 x6 x7 x8 x9 x10 x11 x12 x13 x14 x17 x18 := by
  rw [layers_1_2_3, hidden]
  unfold Cert.KernelIdeal.Gen.k0_pay1
  simp only [prod_128_3, bias_3, splat_3, softsign]
  simp only [val_main_v82, val_main_call4_v2, val_main_call4_v1, val_main_call4_cst, val_main_call4_v0, val_main_v81,
    val_main_v80, val_main_v79, val_main_v78]

/-- The second actor's head. -/
theorem actor2 (x0 : FVec Ideal S1x29 .f32) (x1 x2 : FVec Ideal S1x128 .f32) (x3 : FVec Ideal S256x29 .f32)
    (x4 : FVec Ideal S256 .f32) (x5 : FVec Ideal S256x256 .f32) (x6 : FVec Ideal S256 .f32) (x7 : FVec Ideal S128x256 .f32)
    (x8 : FVec Ideal S128 .f32) (x9 : FVec Ideal S128x128 .f32) (x10 : FVec Ideal S128 .f32) (x11 : FVec Ideal S512x128 .f32)
    (x12 : FVec Ideal S512 .f32) (x13 : FVec Ideal S512x128 .f32) (x14 : FVec Ideal S512 .f32) (x19 : FVec Ideal S3x128 .f32)
    (x20 : FVec Ideal S3 .f32) :
    Cert.KernelIdeal.Gen.k0_pay2 (F := Ideal)
        (Cert.KernelIdeal.Gen.k0_pay4 (F := Ideal) x1 x2 (Cert.KernelIdeal.Gen.k0_pay3 (F := Ideal) x0 x3 x4 x5 x6 x7 x8) x9 x10 x11 x12 x13 x14) x19 x20
      = val_main_v87 (F := Ideal) x0 x1 x2 x3 x4 x5 x6 x7 x8 x9 x10 x11 x12 x13 x14 x19 x20 := by
  rw [layers_1_2_3, hidden]
  unfold Cert.KernelIdeal.Gen.k0_pay2
  simp only [prod_128_3, bias_3]
  simp only [val_main_v87, val_main_v86, val_main_v85, val_main_v84]

end Cert.Layers

end
-- ==== Proof.lean ====
/-
  An actor-critic network on one state: four dense layers with a leaky rectifier (slope 0.1), a recurrent cell
  with gates i, f, g, o, and three heads (the critic's value, an actor's output through the soft sign, a second
  actor's output). The kernel computes all of it in one call over whole arrays and reshapes the three results;
  the reference is the same network written with matrix products against transposed weights.

  Over the extended reals the two compute the same three results at every input:
    * a row times the transposed weight matrix is the row contracted against the weights' last axis;
    * a bias cast to one row is the bias broadcast along the row;
    * (a + b) + (c + d) = ((a + b) + c) + d, the order in which the four gate terms are added;
    * the logistic function is 1 / (1 + e^(-x)), the form the reference spells out;
    * x / (1 + |x|) = x / (|x| + 1).
  None of these laws needs a finite input, so the precondition is not opened. The kernel's program has no
  rewritten operation, so its idealization is its own text and the preservation claim is trivial. The three
  frames: the two kernel programs' are the generated ones; the reference's is its run with the results dropped.
-/
import proofs.«159873_j38903813767521_1_alg».proof.Defs
import proofs.«159873_j38903813767521_1_alg».proof.Proof.Gen.Kernel
import proofs.«159873_j38903813767521_1_alg».proof.Proof.Gen.Kernel.Skeleton
import proofs.«159873_j38903813767521_1_alg».proof.Proof.Gen.Kernel.Launch
import proofs.«159873_j38903813767521_1_alg».proof.Proof.Gen.Kernel.Points
import proofs.«159873_j38903813767521_1_alg».proof.Proof.Gen.Kernel.Frame
import proofs.«159873_j38903813767521_1_alg».proof.Proof.Gen.KernelIdeal
import proofs.«159873_j38903813767521_1_alg».proof.Proof.Gen.KernelIdeal.Skeleton
import proofs.«159873_j38903813767521_1_alg».proof.Proof.Gen.KernelIdeal.Launch
import proofs.«159873_j38903813767521_1_alg».proof.Proof.Gen.KernelIdeal.Points
import proofs.«159873_j38903813767521_1_alg».proof.Proof.Gen.KernelIdeal.Frame
import proofs.«159873_j38903813767521_1_alg».proof.Proof.Gen.ReferenceIdeal
import proofs.«159873_j38903813767521_1_alg».proof.Proof.Gen.Pre_finite_inputs
import proofs.«159873_j38903813767521_1_alg».proof.Proof.KernelRun
import proofs.«159873_j38903813767521_1_alg».proof.Proof.RefStages
import proofs.«159873_j38903813767521_1_alg».proof.Proof.Layers
import Idealize.ShloMosaic.Adequacy
import Idealize.ShloMosaic.Init

noncomputable section

namespace Cert.Proof

open Idealize.ShloMosaic Idealize.SL.Sem

theorem frame_kernel : Cert.frame_Kernel := fun m ρ _ => Cert.Kernel.Gen.frame m ρ

theorem frame_kernelIdeal : Cert.frame_KernelIdeal := fun m ρ _ => Cert.KernelIdeal.Gen.frame m ρ

/-- The reference changes no argument: its run, with the three results dropped. -/
theorem frame_referenceIdeal : Cert.frame_ReferenceIdeal := fun m ρ _ =>
  (θ_run Cert.ReferenceIdeal.defs _ _).mono (fun _ h c => (h c).2.2.2) (Cert.ReferenceIdeal.Stages.run (F := Ideal) m ρ)

theorem preserves : Cert.preserves_Kernel_KernelIdeal := trivial

set_option maxHeartbeats 8000000 in
/-- From memories that agree on the 21 arguments both programs end, the kernel's three results at the reshaped
    values of its argument arrays and the reference's at its last stages; layer by layer these are one function. -/
theorem algebraic : Cert.algebraic_KernelIdeal_ReferenceIdeal := by
  intro m ρ m' ρ' _ hagree
  refine ⟨_, _, _, Cert.KernelIdeal.Arrays.run (F := Ideal) m ρ, ?_⟩
  refine (θ_run Cert.ReferenceIdeal.defs _ _).mono (fun _ h c => ?_) (Cert.ReferenceIdeal.Stages.run (F := Ideal) m' ρ')
  obtain ⟨a0, a1, a2, a3, a4, a5, a6, a7, a8, a9, a10, a11, a12, a13, a14, a15, a16, a17, a18, a19, a20⟩ := hagree c
  obtain ⟨h77, h83, h88, hkept⟩ := h c
  refine ⟨h77.trans ?_, h83.trans ?_, h88.trans ?_, hkept⟩
  · rw [a0, a1, a2, a3, a4, a5, a6, a7, a8, a9, a10, a11, a12, a13, a14, a15, a16]
    exact (congrArg (fun X => shapeCast Cert.KernelIdeal.S_ X Cert.KernelIdeal.Gen.shapeCasts_S1x1_S_)
      (Cert.Layers.critic _ _ _ _ _ _ _ _ _ _ _ _ _ _ _ _ _)).symm
  · rw [a0, a1, a2, a3, a4, a5, a6, a7, a8, a9, a10, a11, a12, a13, a14, a17, a18]
    exact (congrArg (fun X => shapeCast Cert.KernelIdeal.S3 X Cert.KernelIdeal.Gen.shapeCasts_S1x3_S3)
      (Cert.Layers.actor _ _ _ _ _ _ _ _ _ _ _ _ _ _ _ _ _)).symm
  · rw [a0, a1, a2, a3, a4, a5, a6, a7, a8, a9, a10, a11, a12, a13, a14, a19, a20]
    exact (congrArg (fun X => shapeCast Cert.KernelIdeal.S3 X Cert.KernelIdeal.Gen.shapeCasts_S1x3_S3)
      (Cert.Layers.actor2 _ _ _ _ _ _ _ _ _ _ _ _ _ _ _ _ _)).symm

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
